-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : IVec S100000 32) (main_arg3 : FVec F S3x128x128 .f32) (main_arg4 : FVec F S3x128 .f32) (main_arg5 : FVec F S128x10 .f32) (main_arg6 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x10 .f32 := Host.absf main_arg5
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg6 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S10000x128 : Shape := ⟨2, ![10000, 128]⟩
abbrev S740000x128 : Shape := ⟨2, ![740000, 128]⟩
abbrev S1x128 : Shape := ⟨2, ![1, 128]⟩
abbrev S128 : Shape := ⟨1, ![128]⟩
abbrev S100000x1 : Shape := ⟨2, ![100000, 1]⟩
abbrev S1x10 : Shape := ⟨2, ![1, 10]⟩

abbrev nBuf : Space → Nat
  | .hbm => 129
  | .vmem => 39
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S128x10, .f32⟩
  | 6 => ⟨S10, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S740000, .i32⟩
  | 33 => ⟨S740000, .i1⟩
  | 34 => ⟨S_, .i32⟩
  | 35 => ⟨S740000, .i32⟩
  | 36 => ⟨S740000, .i32⟩
  | 37 => ⟨S740000, .i32⟩
  | 38 => ⟨S740000x1, .i32⟩
  | 39 => ⟨S740000, .f32⟩
  | 40 => ⟨S_, .i32⟩
  | 41 => ⟨S740000, .i32⟩
  | 42 => ⟨S740000, .i1⟩
  | 43 => ⟨S_, .i32⟩
  | 44 => ⟨S740000, .i32⟩
  | 45 => ⟨S740000, .i32⟩
  | 46 => ⟨S740000, .i32⟩
  | 47 => ⟨S740000x1, .i32⟩
  | 48 => ⟨S740000, .f32⟩
  | 49 => ⟨S740000, .f32⟩
  | 50 => ⟨S1x128x128, .f32⟩
  | 51 => ⟨S128x128, .f32⟩
  | 52 => ⟨S100000x128, .f32⟩
  | 53 => ⟨S_, .i32⟩
  | 54 => ⟨S740000, .i32⟩
  | 55 => ⟨S740000, .i1⟩
  | 56 => ⟨S_, .i32⟩
  | 57 => ⟨S740000, .i32⟩
  | 58 => ⟨S740000, .i32⟩
  | 59 => ⟨S740000, .i32⟩
  | 60 => ⟨S740000x1, .i32⟩
  | 61 => ⟨S740000x128, .f32⟩
  | 62 => ⟨S740000x1, .f32⟩
  | 63 => ⟨S740000x128, .f32⟩
  | 64 => ⟨S740000x128, .f32⟩
  | 65 => ⟨S_, .f32⟩
  | 66 => ⟨S100000x128, .f32⟩
  | 67 => ⟨S740000x1, .i32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S1x128x128, .f32⟩
  | 74 => ⟨S128x128, .f32⟩
  | 75 => ⟨S100000x128, .f32⟩
  | 76 => ⟨S_, .i32⟩
  | 77 => ⟨S740000, .i32⟩
  | 78 => ⟨S740000, .i1⟩
  | 79 => ⟨S_, .i32⟩
  | 80 => ⟨S740000, .i32⟩
  | 81 => ⟨S740000, .i32⟩
  | 82 => ⟨S740000, .i32⟩
  | 83 => ⟨S740000x1, .i32⟩
  | 84 => ⟨S740000x128, .f32⟩
  | 85 => ⟨S740000x1, .f32⟩
  | 86 => ⟨S740000x128, .f32⟩
  | 87 => ⟨S740000x128, .f32⟩
  | 88 => ⟨S_, .f32⟩
  | 89 => ⟨S100000x128, .f32⟩
  | 90 => ⟨S740000x1, .i32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S740000, .i32⟩
  | 101 => ⟨S740000, .i1⟩
  | 102 => ⟨S_, .i32⟩
  | 103 => ⟨S740000, .i32⟩
  | 104 => ⟨S740000, .i32⟩
  | 105 => ⟨S740000, .i32⟩
  | 106 => ⟨S740000x1, .i32⟩
  | 107 => ⟨S740000x128, .f32⟩
  | 108 => ⟨S740000x1, .f32⟩
  | 109 => ⟨S740000x128, .f32⟩
  | 110 => ⟨S740000x128, .f32⟩
  | 111 => ⟨S_, .f32⟩
  | 112 => ⟨S100000x128, .f32⟩
  | 113 => ⟨S740000x1, .i32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x1, .i32⟩
  | 120 => ⟨S128, .i32⟩
  | 121 => ⟨S1x128, .i32⟩
  | 122 => ⟨S100000x128, .i32⟩
  | 123 => ⟨S100000x128, .i32⟩
  | 124 => ⟨S100000x128, .i1⟩
  | 125 => ⟨S100000x128, .bf16⟩
  | 126 => ⟨S128x128, .f32⟩
  | 127 => ⟨S1x10, .f32⟩
  | _ => ⟨S100000x128, .f32⟩

abbrev hbmTy0_1 (i : Nat) : BufTy := match i % 128 with
  | 0 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .bf16⟩
  | .local _ .vmem, ⟨33, _⟩ => ⟨S10000x128, .bf16⟩
  | .local _ .vmem, ⟨34, _⟩ => ⟨S128x128, .f32⟩
  | .local _ .vmem, ⟨35, _⟩ => ⟨S128x128, .f32⟩
  | .local _ .vmem, ⟨36, _⟩ => ⟨S128x10, .f32⟩
  | .local _ .vmem, ⟨37, _⟩ => ⟨S1x10, .f32⟩
  | .local _ .vmem, ⟨38, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_c_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg3_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem1_0 : DmaSem sig := 36
abbrev cc7_sem2_0 : DmaSem sig := 37
abbrev cc7_sem3_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S128x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S10000x128_S128x128_0_0_1_1_n_n_wf : DotDims.WF S10000x128 S10000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .bf16 = 32 ∨ (Rect.block (s := S100000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S128x128.size a ≤ S128x128.size a
  hwx7_0 : ∀ i : grid7.Coords, EltTy.bits .f32 = 32 ∨ (Rect.block (s := S128x128) S128x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x10.size a ≤ S128x10.size a
  hwx7_1 : ∀ i : grid7.Coords, EltTy.bits .f32 = 32 ∨ (Rect.block (s := S128x10) S128x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x10.size a ≤ S128x10.size a
  hwx7_3 : ∀ i : grid7.Coords, EltTy.bits .f32 = 32 ∨ (Rect.block (s := S128x10) S128x10.size (cc7_transform_3 i) (hinb7_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v87) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S128x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S128x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg5) S128x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S128x10.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S740000x128 : Shape := ⟨2, ![740000, 128]⟩
abbrev S100000x1 : Shape := ⟨2, ![100000, 1]⟩
abbrev S1x10 : Shape := ⟨2, ![1, 10]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S128x10, .f32⟩
  | 6 => ⟨S10, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S740000, .i32⟩
  | 33 => ⟨S740000, .i1⟩
  | 34 => ⟨S_, .i32⟩
  | 35 => ⟨S740000, .i32⟩
  | 36 => ⟨S740000, .i32⟩
  | 37 => ⟨S740000, .i32⟩
  | 38 => ⟨S740000x1, .i32⟩
  | 39 => ⟨S740000, .f32⟩
  | 40 => ⟨S_, .i32⟩
  | 41 => ⟨S740000, .i32⟩
  | 42 => ⟨S740000, .i1⟩
  | 43 => ⟨S_, .i32⟩
  | 44 => ⟨S740000, .i32⟩
  | 45 => ⟨S740000, .i32⟩
  | 46 => ⟨S740000, .i32⟩
  | 47 => ⟨S740000x1, .i32⟩
  | 48 => ⟨S740000, .f32⟩
  | 49 => ⟨S740000, .f32⟩
  | 50 => ⟨S1x128x128, .f32⟩
  | 51 => ⟨S128x128, .f32⟩
  | 52 => ⟨S1x128, .f32⟩
  | 53 => ⟨S128, .f32⟩
  | 54 => ⟨S100000x128, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000x128, .f32⟩
  | 64 => ⟨S740000x1, .f32⟩
  | 65 => ⟨S740000x128, .f32⟩
  | 66 => ⟨S740000x128, .f32⟩
  | 67 => ⟨S_, .f32⟩
  | 68 => ⟨S100000x128, .f32⟩
  | 69 => ⟨S740000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S100000x128, .f32⟩
  | 82 => ⟨S_, .i32⟩
  | 83 => ⟨S740000, .i32⟩
  | 84 => ⟨S740000, .i1⟩
  | 85 => ⟨S_, .i32⟩
  | 86 => ⟨S740000, .i32⟩
  | 87 => ⟨S740000, .i32⟩
  | 88 => ⟨S740000, .i32⟩
  | 89 => ⟨S740000x1, .i32⟩
  | 90 => ⟨S740000x128, .f32⟩
  | 91 => ⟨S740000x1, .f32⟩
  | 92 => ⟨S740000x128, .f32⟩
  | 93 => ⟨S740000x128, .f32⟩
  | 94 => ⟨S_, .f32⟩
  | 95 => ⟨S100000x128, .f32⟩
  | 96 => ⟨S740000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S1x128, .f32⟩
  | 107 => ⟨S128, .f32⟩
  | 108 => ⟨S100000x128, .f32⟩
  | 109 => ⟨S_, .i32⟩
  | 110 => ⟨S740000, .i32⟩
  | 111 => ⟨S740000, .i1⟩
  | 112 => ⟨S_, .i32⟩
  | 113 => ⟨S740000, .i32⟩
  | 114 => ⟨S740000, .i32⟩
  | 115 => ⟨S740000, .i32⟩
  | 116 => ⟨S740000x1, .i32⟩
  | 117 => ⟨S740000x128, .f32⟩
  | 118 => ⟨S740000x1, .f32⟩
  | 119 => ⟨S740000x128, .f32⟩
  | 120 => ⟨S740000x128, .f32⟩
  | 121 => ⟨S_, .f32⟩
  | 122 => ⟨S100000x128, .f32⟩
  | 123 => ⟨S740000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S128x128, .f32⟩
  | 5 => ⟨S100000x1, .i32⟩
  | 6 => ⟨S128x128, .f32⟩
  | 7 => ⟨S128x10, .f32⟩
  | 8 => ⟨S1x10, .f32⟩
  | 9 => ⟨S128x10, .f32⟩
  | 10 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call2_cst : Ref sig .tc := ⟨.hbm, 101, rfl⟩
abbrev main_call2_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call3_cst : Ref sig .tc := ⟨.hbm, 128, rfl⟩
abbrev main_call3_v0 : Ref sig .tc := ⟨.hbm, 129, rfl⟩
abbrev main_v97 : Ref sig .tc := ⟨.hbm, 130, rfl⟩
abbrev main_cst_16 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S128x128_S100000x1_S100000x128_1_0_0_1_wf : ScatterDims.WF S128x128 S100000x1 S100000x128 [1] [0] [0] 1
  dot_S128x128_S128x10_S128x10_1_0_0_1_n_n_wf : DotDims.WF S128x128 S128x10 S128x10 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Spec.lean ====
import proofs.«403458_j76407468195987_1_alg».proof.Proof.Gen.ReferenceIdeal
import proofs.«403458_j76407468195987_1_alg».proof.Proof.Gen.KernelIdeal
import Idealize.ShloMosaic.PureOps.Ideal
import Idealize.ShloMosaic.Lib.ValueIdx

/-!
# What both programs compute

A three-layer graph convolution on 100000 nodes with 128 features, a sum-pool into 128 graphs and a linear head.
With `s`, `d` the source and target lists (the 640000 edges followed by one self loop per node),
`deg v = #{k | d k = v}`, `dinv v = deg v ^ (-1/2)` where `deg v > 0` (else 0) and `nrm k = dinv (s k) * dinv (d k)`:

  layer h = relu (A (h W) + b),   (A y) v = ∑ over k with d k = v of y (s k) * nrm k,
  out     = (P (layer (layer (layer x)))) W_mlp + b_mlp,   (P h) g = ∑ over nodes n with batch n = g of h n.

The index arithmetic, the normalisation and the neighbour sum `A` are host operations in BOTH programs (the same
operations on the same operands), so they are carried here as functions that are never opened. The two programs
differ only in how they compute the four dense pieces: `h W` (one matrix product against ten row tiles), the bias
and relu (broadcasts against row tiles of a [1,128] row), the pool `P` (a scatter-add against a product with the
one-hot matrix of `batch`, accumulated over ten row tiles) and the head.
-/

noncomputable section

open scoped BigOperators

namespace Cert.Spec

open Idealize.ShloMosaic Idealize.ShloMosaic.ValueIdx
open Cert.ReferenceIdeal Cert.ReferenceIdeal.Facts₀

/-- The contents of a buffer of shape `s` and element type `e`. -/
abbrev Arr (F : FTy → Type) (s : Shape) (e : EltTy) : Type := (⟨s, e⟩ : BufTy).Contents (Elt F)

section Host
variable {F : FTy → Type} [FloatOps F]

/-! ## The host side both programs share -/

/-- Message sources: row 0 of the edge list, then every node once (the self loops). -/
def srcOf (e : Arr F S2x640000 .i32) : Arr F S740000 .i32 :=
  concatenate S740000 0 [⟨S640000, (shapeCast _ (extractStridedSlice S1x640000 ![0, 0] e slices_S2x640000_S1x640000_0_0) shapeCasts_S1x640000_S640000)⟩, ⟨S100000, (iotaInDim S100000 32 0)⟩] concatenates_S640000_S100000_S740000_d0

/-- Aggregation targets: row 1 of the edge list, then every node once. -/
def dstOf (e : Arr F S2x640000 .i32) : Arr F S740000 .i32 :=
  concatenate S740000 0 [⟨S640000, (shapeCast _ (extractStridedSlice S1x640000 ![1, 0] e slices_S2x640000_S1x640000_1_0) shapeCasts_S1x640000_S640000)⟩, ⟨S100000, (iotaInDim S100000 32 0)⟩] concatenates_S640000_S100000_S740000_d0

/-- A negative node index counts from the end (numpy's convention): `v < 0 ? v + 100000 : v`. -/
def wrapIdx (v : Arr F S740000 .i32) : Arr F S740000 .i32 :=
  select (cmpi .slt v (broadcastInDim S740000 ![] bcast_S_S740000 (constantI S_ 32 0#32))) (addi v (broadcastInDim S740000 ![] bcast_S_S740000 (constantI S_ 32 100000#32))) v

/-- `deg ^ (-1/2)` where the in-degree (self loop included) is positive, 0 elsewhere. -/
def dinvOf (dv : Arr F S740000 .i32) : Arr F S100000 .f32 :=
  select (cmpf (F := F) .ogt (Host.scatterAdd scatter_S100000_S740000x1_S740000_n_0_0_1 (broadcastInDim S100000 ![] bcast_S_S100000 (constant S_ .f32 0x00000000#32)) (broadcastInDim S740000x1 ![0] bcast_S740000_S740000x1_0 dv) (broadcastInDim S740000 ![] bcast_S_S740000 (constant S_ .f32 0x3F800000#32))) (broadcastInDim S100000 ![] bcast_S_S100000 (constant S_ .f32 0x00000000#32))) (Host.rsqrt (maximumf (Host.scatterAdd scatter_S100000_S740000x1_S740000_n_0_0_1 (broadcastInDim S100000 ![] bcast_S_S100000 (constant S_ .f32 0x00000000#32)) (broadcastInDim S740000x1 ![0] bcast_S740000_S740000x1_0 dv) (broadcastInDim S740000 ![] bcast_S_S740000 (constant S_ .f32 0x3F800000#32))) (broadcastInDim S100000 ![] bcast_S_S100000 (constant S_ .f32 0x3F800000#32)))) (broadcastInDim S100000 ![] bcast_S_S100000 (id (constant S_ .f32 0x00000000#32)))

/-- The symmetric normalisation of every message: `dinv (source) * dinv (target)`. -/
def normOf (sv dv : Arr F S740000 .i32) : Arr F S740000 .f32 :=
  mulf (Host.gather gather_S100000_S740000x1_S740000_n_0_n_n_0_1_1 (dinvOf dv) (broadcastInDim S740000x1 ![0] bcast_S740000_S740000x1_0 (wrapIdx sv))) (Host.gather gather_S100000_S740000x1_S740000_n_0_n_n_0_1_1 (dinvOf dv) (broadcastInDim S740000x1 ![0] bcast_S740000_S740000x1_0 (wrapIdx dv)))

/-- The neighbour sum: node `v` receives `y (source k) * nrm k` from every message `k` whose target is `v`. -/
def agg (sv dv : Arr F S740000 .i32) (nv : Arr F S740000 .f32) (y : Arr F S100000x128 .f32) : Arr F S100000x128 .f32 :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 dv) (mulf (Host.gather gather_S100000x128_S740000x1_S740000x128_1_0_n_n_0_1_1128 y (broadcastInDim S740000x1 ![0] bcast_S740000_S740000x1_0 (wrapIdx sv))) (broadcastInDim S740000x128 ![0, 1] bcast_S740000x1_S740000x128_0_1 (broadcastInDim S740000x1 ![0] bcast_S740000_S740000x1_0 nv)))

/-- Layer `l`'s weight matrix out of the stacked weights. -/
def w0Of (ws : Arr F S3x128x128 .f32) : Arr F S128x128 .f32 := shapeCast _ (extractStridedSlice S1x128x128 ![0, 0, 0] ws slices_S3x128x128_S1x128x128_0_0_0) shapeCasts_S1x128x128_S128x128
def w1Of (ws : Arr F S3x128x128 .f32) : Arr F S128x128 .f32 := shapeCast _ (extractStridedSlice S1x128x128 ![1, 0, 0] ws slices_S3x128x128_S1x128x128_1_0_0) shapeCasts_S1x128x128_S128x128
def w2Of (ws : Arr F S3x128x128 .f32) : Arr F S128x128 .f32 := shapeCast _ (extractStridedSlice S1x128x128 ![2, 0, 0] ws slices_S3x128x128_S1x128x128_2_0_0) shapeCasts_S1x128x128_S128x128
/-- Layer `l`'s bias vector out of the stacked biases. -/
def b0Of (bs : Arr F S3x128 .f32) : Arr F S128 .f32 := shapeCast _ (extractStridedSlice S1x128 ![0, 0] bs slices_S3x128_S1x128_0_0) shapeCasts_S1x128_S128
def b1Of (bs : Arr F S3x128 .f32) : Arr F S128 .f32 := shapeCast _ (extractStridedSlice S1x128 ![1, 0] bs slices_S3x128_S1x128_1_0) shapeCasts_S1x128_S128
def b2Of (bs : Arr F S3x128 .f32) : Arr F S128 .f32 := shapeCast _ (extractStridedSlice S1x128 ![2, 0] bs slices_S3x128_S1x128_2_0) shapeCasts_S1x128_S128

/-! ## The reference's dense pieces (host operations on whole arrays) -/

/-- One layer as the reference computes it: one matrix product, the neighbour sum, the bias broadcast over the rows, relu. -/
def layerH (sv dv : Arr F S740000 .i32) (nv : Arr F S740000 .f32) (w : Arr F S128x128 .f32) (b : Arr F S128 .f32) (h : Arr F S100000x128 .f32) : Arr F S100000x128 .f32 :=
  maximumf (addf (agg sv dv nv (Host.dotGeneral dot_S100000x128_S128x128_S100000x128_1_0_0_1_n_n none h w)) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The sum-pool as the reference computes it: node `n`'s row is added into row `batch n`. -/
def poolH (batch : Arr F S100000 .i32) (h : Arr F S100000x128 .f32) : Arr F S128x128 .f32 :=
  Host.scatterAdd scatter_S128x128_S100000x1_S100000x128_1_0_0_1 (broadcastInDim S128x128 ![] bcast_S_S128x128 (constant S_ .f32 0x00000000#32)) (broadcastInDim S100000x1 ![0] bcast_S100000_S100000x1_0 batch) h

/-- The linear head as the reference computes it. -/
def headH (p : Arr F S128x128 .f32) (wm : Arr F S128x10 .f32) (bm : Arr F S10 .f32) : Arr F S128x10 .f32 :=
  addf (Host.dotGeneral dot_S128x128_S128x10_S128x10_1_0_0_1_n_n none p wm) (broadcastInDim S128x10 ![0, 1] bcast_S1x10_S128x10_0_1 (broadcastInDim S1x10 ![1] bcast_S10_S1x10_1 bm))

/-- The reference's result as a function of its seven arguments. -/
def specH (x : Arr F S100000x128 .f32) (e : Arr F S2x640000 .i32) (batch : Arr F S100000 .i32) (ws : Arr F S3x128x128 .f32) (bs : Arr F S3x128 .f32) (wm : Arr F S128x10 .f32) (bm : Arr F S10 .f32) : Arr F S128x10 .f32 :=
  headH (poolH batch (layerH (srcOf e) (dstOf e) (normOf (srcOf e) (dstOf e)) (w2Of ws) (b2Of bs) (layerH (srcOf e) (dstOf e) (normOf (srcOf e) (dstOf e)) (w1Of ws) (b1Of bs) (layerH (srcOf e) (dstOf e) (normOf (srcOf e) (dstOf e)) (w0Of ws) (b0Of bs) x)))) wm bm

/-! ## The host side only the kernel's program has: the operands it prepares for its dense pieces -/

/-- A bias vector as the [1,128] row the kernel's bias-and-relu region reads. -/
def rowOf (b : Arr F S128 .f32) : Arr F S1x128 .f32 := shapeCast _ b Cert.KernelIdeal.Facts₀.shapeCasts_S128_S1x128
/-- The head's bias as the [1,10] row the kernel's last region reads. -/
def row10Of (bm : Arr F S10 .f32) : Arr F S1x10 .f32 := shapeCast _ bm Cert.KernelIdeal.Facts₀.shapeCasts_S10_S1x10
/-- The one-hot matrix of `batch`, in bf16: entry (n, g) is 1 when `batch n = g`, else 0. -/
def onehotOf (batch : Arr F S100000 .i32) : Arr F S100000x128 .bf16 :=
  uitofp (F := F) .bf16 (cmpi .eq (broadcastInDim S100000x128 ![0, 1] Cert.KernelIdeal.Facts₀.bcast_S100000x1_S100000x128_0_1 (broadcastInDim S100000x1 ![0] bcast_S100000_S100000x1_0 batch)) (broadcastInDim S100000x128 ![0, 1] bcast_S1x128_S100000x128_0_1 (broadcastInDim S1x128 ![1] bcast_S128_S1x128_1 (iotaInDim S128 32 0))))

end Host

/-! ## The kernel's dense pieces, index by index over the extended reals -/

/-- Rows times a 128×128 matrix: what the ten row tiles of the kernel's matrix-product regions assemble. -/
def mmSpec (x : Arr Ideal S100000x128 .f32) (w : Arr Ideal S128x128 .f32) : Arr Ideal S100000x128 .f32 :=
  fun i => ∑ k : Fin 128, x (ix2 (i 0) k) * w (ix2 k (i 1))

/-- Bias (a [1,128] row, the same for every node) and relu. -/
def brSpec (a : Arr Ideal S100000x128 .f32) (b : Arr Ideal S1x128 .f32) : Arr Ideal S100000x128 .f32 :=
  fun i => max (a i + b (ix2 0 (i 1))) 0

/-- The pool as the kernel computes it: the one-hot matrix transposed times the node features,
    `(g, f) ↦ ∑ n, onehot (n, g) * h (n, f)`. -/
def poolSpec (h : Arr Ideal S100000x128 .f32) (oh : Arr Ideal S100000x128 .bf16) : Arr Ideal S128x128 .f32 :=
  fun i => ∑ n : Fin 100000, oh (ix2 n (i 0)) * h (ix2 n (i 1))

/-- The head as the kernel computes it: pooled times W_mlp plus the [1,10] bias row. -/
def finSpec (p : Arr Ideal S128x128 .f32) (wm : Arr Ideal S128x10 .f32) (b : Arr Ideal S1x10 .f32) : Arr Ideal S128x10 .f32 :=
  fun i => (∑ k : Fin 128, p (ix2 (i 0) k) * wm (ix2 k (i 1))) + b (ix2 0 (i 1))

/-- One layer as the kernel's program computes it: a matrix-product region, the shared neighbour sum, a bias-and-relu region. -/
def layerK (sv dv : Arr Ideal S740000 .i32) (nv : Arr Ideal S740000 .f32) (w : Arr Ideal S128x128 .f32) (b : Arr Ideal S128 .f32) (h : Arr Ideal S100000x128 .f32) : Arr Ideal S100000x128 .f32 :=
  brSpec (agg sv dv nv (mmSpec h w)) (rowOf b)

/-- The kernel program's result as a function of its seven arguments. -/
def specK (x : Arr Ideal S100000x128 .f32) (e : Arr Ideal S2x640000 .i32) (batch : Arr Ideal S100000 .i32) (ws : Arr Ideal S3x128x128 .f32) (bs : Arr Ideal S3x128 .f32) (wm : Arr Ideal S128x10 .f32) (bm : Arr Ideal S10 .f32) : Arr Ideal S128x10 .f32 :=
  finSpec (poolSpec (layerK (srcOf e) (dstOf e) (normOf (srcOf e) (dstOf e)) (w2Of ws) (b2Of bs) (layerK (srcOf e) (dstOf e) (normOf (srcOf e) (dstOf e)) (w1Of ws) (b1Of bs) (layerK (srcOf e) (dstOf e) (normOf (srcOf e) (dstOf e)) (w0Of ws) (b0Of bs) x))) (onehotOf batch)) wm (row10Of bm)

end Cert.Spec

end
-- ==== Proof.RegMm0.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.PureOps.Ideal.Laws

/-!
# The first matrix-product region: ten row tiles of `x W`

Write `x` for the region's 100000×128 left operand and `W` for its 128×128 right operand. The region walks the rows
of `x` in ten tiles of 10000 rows. At tile `t` it reads rows `10000 t … 10000 t + 9999` of `x` and the whole of `W`, and
writes the product of the two,
accumulated from zero, to the same rows of the result. Over the extended reals the change of float format
before the product is the identity, so entry `(p, q)` of a tile's product is `∑ k, x (10000 t + p, k) · W (k, q)`,
which is entry `(10000 t + p, q)` of `x W`. Every row lies in exactly one tile (row `r` in tile `r / 10000`), so
after the ten tiles the result array is `x W` everywhere.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## One tile's product at an entry -/

/-- The left operand of the product at output entry `i` and contraction position `q` sits in row `i 0` … -/
theorem mm0_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and in the column the contraction position names. -/
theorem mm0_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand sits in the row the contraction position names … -/
theorem mm0_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and in column `i 1`. -/
theorem mm0_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, q)` of what the body stores for a tile `x0` of rows and the matrix `x1`: the change of float format is
    the identity on the extended reals and the accumulator starts at zero, so it is the plain sum of products. -/
theorem mm0_pay (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  simp only [shapeCast_self]
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm0_lhs_0 _ _
    | ⟨1, _⟩ => exact (mm0_lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm0_rhs_0 _ _).trans hk
    | ⟨1, _⟩ => exact mm0_rhs_1 _ _)
  rw [el, er]
  rfl

/-- So if the tile's row `p` is row `i 0` of `X` and the matrix's column `q` is column `i 1` of `W`, entry `(p, q)` of the
    tile's product is entry `i` of `X W`. -/
theorem mm0_block (X : S100000x128.Idx → EReal) (W : S128x128.Idx → EReal)
    (x0 : Vec Ideal S10000x128 .f32) (x1 : Vec Ideal S128x128 .f32) (i : S100000x128.Idx) (p : Fin 10000) (q : Fin 128)
    (h0 : ∀ k : Fin 128, x0 (ix2 p k) = X (ix2 (i 0) k)) (h1 : ∀ k : Fin 128, x1 (ix2 k q) = W (ix2 k (i 1))) :
    k0_pay1 x0 x1 (ix2 p q) = mmSpec X W i := by
  rw [mm0_pay]
  exact Finset.sum_congr rfl fun k _ => by rw [h0 k, h1 k]

/-! ## From the ten tiles to the array -/

theorem mm0_hz : (![0, 0] : Fin 2 → Nat) = fun _ => 0 := funext fun a => by fin_cases a <;> rfl

/-- The printed index maps, decided over the ten tiles: the tile of `x` moves with the output's tile down the rows, the
    matrix stays where it is, and tile `t` of the output is the `t`-th block of rows. -/
theorem mm0_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What tile `t` writes back is tile `t` of `x W`, for `x` and `W` as the region finds them. -/
theorem mm0_flushed_eq (c : Dev nD) (t : Fin cfg0.N) :
    (dat0 (F := Ideal) V c).flushed 2 t = ((cfg0.win 2).blk t).view.read (Elt Ideal) (mmSpec (V c main_arg0) (V c main_v33)) := by
  show (cfg0.win 2).cut (grid0.coords t) ((dat0 V c).after 2 t) = _
  rw [after0_2]
  unfold out0_2
  rw [View.canon_unit_zero mm0_hz]
  simp only [View.ld_unit_zero (S := S10000x128) mm0_hz, View.ld_unit_zero (S := S128x128) mm0_hz]
  obtain ⟨e0, e1, e2, e3, e4, e5⟩ := mm0_idx_facts t
  funext j
  obtain ⟨p, q, rfl⟩ : ∃ (p : Fin 10000) (q : Fin 128), j = ix2 p q := ⟨j 0, j 1, eq_ix2 j⟩
  refine mm0_block (V c main_arg0) (V c main_v33) (iblk0 V c 0 t) (iblk0 V c 1 t) (((cfg0.win 2).blk t).view.emb (ix2 p q)) p q (fun k => ?_) (fun k => ?_)
  · show V c main_arg0 (((cfg0.win 0).blk t).view.emb (ix2 p k)) = V c main_arg0 (ix2 ((((cfg0.win 2).blk t).view.emb (ix2 p q)) 0) k)
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_v33 (((cfg0.win 1).blk t).view.emb (ix2 k q)) = V c main_v33 (ix2 k ((((cfg0.win 2).blk t).view.emb (ix2 p q)) 1))
    refine congrArg (V c main_v33) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An entry of the result is in tile `t` iff each of its coordinates is in the tile's range on that axis. -/
theorem mm0_mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v34).slice (win0_2.rect t)).set ↔ _
  rw [View.set_slice_whole, Rect.mem_set_unit]
  exact Iff.rfl

/-- Every entry of the result is in some tile: row `r` is in tile `r / 10000`. -/
theorem mm0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  obtain ⟨e0, e1, e2, e3, e4, e5⟩ := mm0_idx_facts t
  have ht : t.val = (i 0).val / 10000 := rfl
  refine ⟨t, flush0_2 t, ?_⟩
  rw [mm0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the ten tiles the result array is `x W`. -/
theorem mm0_final (c : Dev nD) :
    (dat0 (F := Ideal) V c).arrAt 2 cfg0.N = mmSpec (V c main_arg0) (V c main_v33) :=
  (dat0 (F := Ideal) V c).arrAt_eq_of_cover 2 (mmSpec (V c main_arg0) (V c main_v33)) (fun t _ => mm0_flushed_eq V c t) mm0_cover

end Cert.KernelIdeal.Val

end
-- ==== Proof.RegBr1.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## Bias and relu: ten row tiles of `max (a + b, 0)` assemble the whole array

The body adds the one row `b` of the [1,128] operand to every row of its tile of `a` and takes the maximum with 0.
Tile `t` is rows `10000 t … 10000 t + 9999` of the [100000,128] arrays; the row operand is whole at every point. -/

/-- The zero offsets of a whole-buffer access, as the constant function. -/
theorem br1_zero_off : (![0, 0] : Fin 2 → Nat) = fun _ => 0 := funext fun a => by fin_cases a <;> rfl

/-- The body's stored value at row `p`, column `q` of a tile: the tile's entry plus the row operand's entry in
    column `q`, against 0 (the zero word is the extended real 0, and the maximum is the extended reals'). -/
theorem br1_pay_ix (x0 : Vec Ideal S10000x128 .f32) (x1 : Vec Ideal S1x128 .f32) (p : Fin 10000) (q : Fin 128) :
    k1_pay1 x0 x1 (ix2 p q) = max (x0 (ix2 p q) + x1 (ix2 (0 : Fin 1) q)) 0 := by
  unfold k1_pay1
  rw [maximumf_apply, addf_apply, shapeCast_self, shapeCast_self, broadcastTo_1b_ab_apply, broadcast_apply]
  show max _ (Ideal.ofBits .f32 0x00000000#32) = _
  rw [Ideal.ofBits_zero_f32]

/-- The same at any index `j` of the tile: only `j`'s column reaches the row operand. -/
theorem br1_pay_apply (x0 : Vec Ideal S10000x128 .f32) (x1 : Vec Ideal S1x128 .f32) (j : S10000x128.Idx) :
    k1_pay1 x0 x1 j = max (x0 j + x1 (ix2 (0 : Fin 1) (j 1))) 0 := by
  obtain ⟨p, q, rfl⟩ : ∃ (p : Fin 10000) (q : Fin 128), j = ix2 p q := ⟨j 0, j 1, eq_ix2 j⟩
  exact br1_pay_ix x0 x1 p q

/-- If the tile's entry at `j` is `a` at `i`, and the row operand in `j`'s column is `b` in `i`'s column, the stored
    value at `j` is the specification of `a`, `b` at `i`. -/
theorem br1_at (a : Cert.Spec.Arr Ideal S100000x128 .f32) (b : Cert.Spec.Arr Ideal S1x128 .f32)
    (x0 : Vec Ideal S10000x128 .f32) (x1 : Vec Ideal S1x128 .f32) (j : S10000x128.Idx) (i : S100000x128.Idx)
    (h0 : x0 j = a i) (h1 : x1 (ix2 (0 : Fin 1) (j 1)) = b (ix2 0 (i 1))) :
    k1_pay1 x0 x1 j = brSpec a b i := by
  rw [br1_pay_apply, h0, h1]; rfl

/-- The block indices over the grid: the two [100000,128] windows are at row block `t`, column block 0, at point `t`;
    the row operand's window stays at block (0, 0). -/
theorem br1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of `brSpec` of the two operand arrays as the region finds them: the input
    tile and the output tile sit over the same rows, and the row operand's block is the whole row. -/
theorem br1_flushed_eq (c : Dev nD) (t : Fin cfg1.N) :
    (dat1 (F := Ideal) V c).flushed 2 t
      = ((cfg1.win 2).blk t).view.read (Elt Ideal) (brSpec (V c main_v47) (V c main_v50)) := by
  show (cfg1.win 2).cut (grid1.coords t) ((dat1 (F := Ideal) V c).after 2 t) = _
  rw [after1_2]
  unfold out1_2
  rw [View.canon_unit_zero br1_zero_off]
  simp only [View.ld_unit_zero (S := S10000x128) br1_zero_off, View.ld_unit_zero (S := S1x128) br1_zero_off]
  obtain ⟨e00, e01, e10, e11, e20, e21⟩ := br1_idx t
  funext j
  show k1_pay1 (iblk1 V c 0 t) (iblk1 V c 1 t) j
    = brSpec (V c main_v47) (V c main_v50) (((cfg1.win 2).blk t).view.emb j)
  refine br1_at (V c main_v47) (V c main_v50) (iblk1 V c 0 t) (iblk1 V c 1 t) j _ ?_ ?_
  · show V c main_v47 (((cfg1.win 0).blk t).view.emb j) = V c main_v47 (((cfg1.win 2).blk t).view.emb j)
    refine congrArg (V c main_v47) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v50 (((cfg1.win 1).blk t).view.emb (ix2 (0 : Fin 1) (j 1)))
      = V c main_v50 (ix2 0 ((((cfg1.win 2).blk t).view.emb j) 1))
    refine congrArg (V c main_v50) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s tile iff each coordinate is in the tile's range on its axis. -/
theorem br1_mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v51).slice (win1_2.rect t)).set ↔ _
  rw [View.set_slice_whole, Rect.mem_set_unit]
  exact Iff.rfl

/-- The tiles cover the array: row `r` is in the tile of point `r / 10000`, and every point writes its tile back. -/
theorem br1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e20, e21⟩ := br1_idx t
  refine ⟨t, flush1_2 t, ?_⟩
  rw [br1_mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array holds `max (a + b, 0)` of the operand arrays as the region found them, index by index. -/
theorem br1_final (c : Dev nD) :
    (dat1 (F := Ideal) V c).arrAt 2 cfg1.N = brSpec (V c main_v47) (V c main_v50) :=
  (dat1 (F := Ideal) V c).arrAt_eq_of_cover 2 (brSpec (V c main_v47) (V c main_v50))
    (fun t _ => br1_flushed_eq V c t) br1_cover

end Cert.KernelIdeal.Val

end
-- ==== Proof.RegMm2.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.PureOps.Ideal.Laws

/-!
# The second matrix-product region: ten row tiles of `x W`

Write `x` for the region's 100000×128 left operand and `W` for its 128×128 right operand. The region walks the rows
of `x` in ten tiles of 10000 rows. At tile `t` it reads rows `10000 t … 10000 t + 9999` of `x` and the whole of `W`, and
writes the product of the two,
accumulated from zero, to the same rows of the result. Over the extended reals the change of float format
before the product is the identity, so entry `(p, q)` of a tile's product is `∑ k, x (10000 t + p, k) · W (k, q)`,
which is entry `(10000 t + p, q)` of `x W`. Every row lies in exactly one tile (row `r` in tile `r / 10000`), so
after the ten tiles the result array is `x W` everywhere.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## One tile's product at an entry -/

/-- The left operand of the product at output entry `i` and contraction position `q` sits in row `i 0` … -/
theorem mm2_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and in the column the contraction position names. -/
theorem mm2_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand sits in the row the contraction position names … -/
theorem mm2_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and in column `i 1`. -/
theorem mm2_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, q)` of what the body stores for a tile `x0` of rows and the matrix `x1`: the change of float format is
    the identity on the extended reals and the accumulator starts at zero, so it is the plain sum of products. -/
theorem mm2_pay (x0 : Vec Ideal S10000x128 .f32) (x1 : Vec Ideal S128x128 .f32) (p : Fin 10000) (q : Fin 128) :
    k2_pay1 x0 x1 (ix2 p q) = ∑ k : Fin 128, x0 (ix2 p k) * x1 (ix2 k q) := by
  unfold k2_pay1
  simp only [shapeCast_self]
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm2_lhs_0 _ _
    | ⟨1, _⟩ => exact (mm2_lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm2_rhs_0 _ _).trans hk
    | ⟨1, _⟩ => exact mm2_rhs_1 _ _)
  rw [el, er]
  rfl

/-- So if the tile's row `p` is row `i 0` of `X` and the matrix's column `q` is column `i 1` of `W`, entry `(p, q)` of the
    tile's product is entry `i` of `X W`. -/
theorem mm2_block (X : S100000x128.Idx → EReal) (W : S128x128.Idx → EReal)
    (x0 : Vec Ideal S10000x128 .f32) (x1 : Vec Ideal S128x128 .f32) (i : S100000x128.Idx) (p : Fin 10000) (q : Fin 128)
    (h0 : ∀ k : Fin 128, x0 (ix2 p k) = X (ix2 (i 0) k)) (h1 : ∀ k : Fin 128, x1 (ix2 k q) = W (ix2 k (i 1))) :
    k2_pay1 x0 x1 (ix2 p q) = mmSpec X W i := by
  rw [mm2_pay]
  exact Finset.sum_congr rfl fun k _ => by rw [h0 k, h1 k]

/-! ## From the ten tiles to the array -/

theorem mm2_hz : (![0, 0] : Fin 2 → Nat) = fun _ => 0 := funext fun a => by fin_cases a <;> rfl

/-- The printed index maps, decided over the ten tiles: the tile of `x` moves with the output's tile down the rows, the
    matrix stays where it is, and tile `t` of the output is the `t`-th block of rows. -/
theorem mm2_idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What tile `t` writes back is tile `t` of `x W`, for `x` and `W` as the region finds them. -/
theorem mm2_flushed_eq (c : Dev nD) (t : Fin cfg2.N) :
    (dat2 (F := Ideal) V c).flushed 2 t = ((cfg2.win 2).blk t).view.read (Elt Ideal) (mmSpec (V c main_v51) (V c main_v53)) := by
  show (cfg2.win 2).cut (grid2.coords t) ((dat2 V c).after 2 t) = _
  rw [after2_2]
  unfold out2_2
  rw [View.canon_unit_zero mm2_hz]
  simp only [View.ld_unit_zero (S := S10000x128) mm2_hz, View.ld_unit_zero (S := S128x128) mm2_hz]
  obtain ⟨e0, e1, e2, e3, e4, e5⟩ := mm2_idx_facts t
  funext j
  obtain ⟨p, q, rfl⟩ : ∃ (p : Fin 10000) (q : Fin 128), j = ix2 p q := ⟨j 0, j 1, eq_ix2 j⟩
  refine mm2_block (V c main_v51) (V c main_v53) (iblk2 V c 0 t) (iblk2 V c 1 t) (((cfg2.win 2).blk t).view.emb (ix2 p q)) p q (fun k => ?_) (fun k => ?_)
  · show V c main_v51 (((cfg2.win 0).blk t).view.emb (ix2 p k)) = V c main_v51 (ix2 ((((cfg2.win 2).blk t).view.emb (ix2 p q)) 0) k)
    refine congrArg (V c main_v51) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · show V c main_v53 (((cfg2.win 1).blk t).view.emb (ix2 k q)) = V c main_v53 (ix2 k ((((cfg2.win 2).blk t).view.emb (ix2 p q)) 1))
    refine congrArg (V c main_v53) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An entry of the result is in tile `t` iff each of its coordinates is in the tile's range on that axis. -/
theorem mm2_mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v54).slice (win2_2.rect t)).set ↔ _
  rw [View.set_slice_whole, Rect.mem_set_unit]
  exact Iff.rfl

/-- Every entry of the result is in some tile: row `r` is in tile `r / 10000`. -/
theorem mm2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; omega⟩
  obtain ⟨e0, e1, e2, e3, e4, e5⟩ := mm2_idx_facts t
  have ht : t.val = (i 0).val / 10000 := rfl
  refine ⟨t, flush2_2 t, ?_⟩
  rw [mm2_mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the ten tiles the result array is `x W`. -/
theorem mm2_final (c : Dev nD) :
    (dat2 (F := Ideal) V c).arrAt 2 cfg2.N = mmSpec (V c main_v51) (V c main_v53) :=
  (dat2 (F := Ideal) V c).arrAt_eq_of_cover 2 (mmSpec (V c main_v51) (V c main_v53)) (fun t _ => mm2_flushed_eq V c t) mm2_cover

end Cert.KernelIdeal.Val

end
-- ==== Proof.RegBr3.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## Bias and relu: ten row tiles of `max (a + b, 0)` assemble the whole array

The body adds the one row `b` of the [1,128] operand to every row of its tile of `a` and takes the maximum with 0.
Tile `t` is rows `10000 t … 10000 t + 9999` of the [100000,128] arrays; the row operand is whole at every point. -/

/-- The zero offsets of a whole-buffer access, as the constant function. -/
theorem br3_zero_off : (![0, 0] : Fin 2 → Nat) = fun _ => 0 := funext fun a => by fin_cases a <;> rfl

/-- The body's stored value at row `p`, column `q` of a tile: the tile's entry plus the row operand's entry in
    column `q`, against 0 (the zero word is the extended real 0, and the maximum is the extended reals'). -/
theorem br3_pay_ix (x0 : Vec Ideal S10000x128 .f32) (x1 : Vec Ideal S1x128 .f32) (p : Fin 10000) (q : Fin 128) :
    k3_pay1 x0 x1 (ix2 p q) = max (x0 (ix2 p q) + x1 (ix2 (0 : Fin 1) q)) 0 := by
  unfold k3_pay1
  rw [maximumf_apply, addf_apply, shapeCast_self, shapeCast_self, broadcastTo_1b_ab_apply, broadcast_apply]
  show max _ (Ideal.ofBits .f32 0x00000000#32) = _
  rw [Ideal.ofBits_zero_f32]

/-- The same at any index `j` of the tile: only `j`'s column reaches the row operand. -/
theorem br3_pay_apply (x0 : Vec Ideal S10000x128 .f32) (x1 : Vec Ideal S1x128 .f32) (j : S10000x128.Idx) :
    k3_pay1 x0 x1 j = max (x0 j + x1 (ix2 (0 : Fin 1) (j 1))) 0 := by
  obtain ⟨p, q, rfl⟩ : ∃ (p : Fin 10000) (q : Fin 128), j = ix2 p q := ⟨j 0, j 1, eq_ix2 j⟩
  exact br3_pay_ix x0 x1 p q

/-- If the tile's entry at `j` is `a` at `i`, and the row operand in `j`'s column is `b` in `i`'s column, the stored
    value at `j` is the specification of `a`, `b` at `i`. -/
theorem br3_at (a : Cert.Spec.Arr Ideal S100000x128 .f32) (b : Cert.Spec.Arr Ideal S1x128 .f32)
    (x0 : Vec Ideal S10000x128 .f32) (x1 : Vec Ideal S1x128 .f32) (j : S10000x128.Idx) (i : S100000x128.Idx)
    (h0 : x0 j = a i) (h1 : x1 (ix2 (0 : Fin 1) (j 1)) = b (ix2 0 (i 1))) :
    k3_pay1 x0 x1 j = brSpec a b i := by
  rw [br3_pay_apply, h0, h1]; rfl

/-- The block indices over the grid: the two [100000,128] windows are at row block `t`, column block 0, at point `t`;
    the row operand's window stays at block (0, 0). -/
theorem br3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of `brSpec` of the two operand arrays as the region finds them: the input
    tile and the output tile sit over the same rows, and the row operand's block is the whole row. -/
theorem br3_flushed_eq (c : Dev nD) (t : Fin cfg3.N) :
    (dat3 (F := Ideal) V c).flushed 2 t
      = ((cfg3.win 2).blk t).view.read (Elt Ideal) (brSpec (V c main_v67) (V c main_v70)) := by
  show (cfg3.win 2).cut (grid3.coords t) ((dat3 (F := Ideal) V c).after 2 t) = _
  rw [after3_2]
  unfold out3_2
  rw [View.canon_unit_zero br3_zero_off]
  simp only [View.ld_unit_zero (S := S10000x128) br3_zero_off, View.ld_unit_zero (S := S1x128) br3_zero_off]
  obtain ⟨e00, e01, e10, e11, e20, e21⟩ := br3_idx t
  funext j
  show k3_pay1 (iblk3 V c 0 t) (iblk3 V c 1 t) j
    = brSpec (V c main_v67) (V c main_v70) (((cfg3.win 2).blk t).view.emb j)
  refine br3_at (V c main_v67) (V c main_v70) (iblk3 V c 0 t) (iblk3 V c 1 t) j _ ?_ ?_
  · show V c main_v67 (((cfg3.win 0).blk t).view.emb j) = V c main_v67 (((cfg3.win 2).blk t).view.emb j)
    refine congrArg (V c main_v67) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · show V c main_v70 (((cfg3.win 1).blk t).view.emb (ix2 (0 : Fin 1) (j 1)))
      = V c main_v70 (ix2 0 ((((cfg3.win 2).blk t).view.emb j) 1))
    refine congrArg (V c main_v70) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the output array is in point `t`'s tile iff each coordinate is in the tile's range on its axis. -/
theorem br3_mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v71).slice (win3_2.rect t)).set ↔ _
  rw [View.set_slice_whole, Rect.mem_set_unit]
  exact Iff.rfl

/-- The tiles cover the array: row `r` is in the tile of point `r / 10000`, and every point writes its tile back. -/
theorem br3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, e20, e21⟩ := br3_idx t
  refine ⟨t, flush3_2 t, ?_⟩
  rw [br3_mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the output array holds `max (a + b, 0)` of the operand arrays as the region found them, index by index. -/
theorem br3_final (c : Dev nD) :
    (dat3 (F := Ideal) V c).arrAt 2 cfg3.N = brSpec (V c main_v67) (V c main_v70) :=
  (dat3 (F := Ideal) V c).arrAt_eq_of_cover 2 (brSpec (V c main_v67) (V c main_v70))
    (fun t _ => br3_flushed_eq V c t) br3_cover

end Cert.KernelIdeal.Val

end
-- ==== Proof.RegMm4.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.PureOps.Ideal.Laws

/-!
# The third matrix-product region: ten row tiles of `x W`

Write `x` for the region's 100000×128 left operand and `W` for its 128×128 right operand. The region walks the rows
of `x` in ten tiles of 10000 rows. At tile `t` it reads rows `10000 t … 10000 t + 9999` of `x` and the whole of `W`, and
writes the product of the two,
accumulated from zero, to the same rows of the result. Over the extended reals the change of float format
before the product is the identity, so entry `(p, q)` of a tile's product is `∑ k, x (10000 t + p, k) · W (k, q)`,
which is entry `(10000 t + p, q)` of `x W`. Every row lies in exactly one tile (row `r` in tile `r / 10000`), so
after the ten tiles the result array is `x W` everywhere.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## One tile's product at an entry -/

/-- The left operand of the product at output entry `i` and contraction position `q` sits in row `i 0` … -/
theorem mm4_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and in the column the contraction position names. -/
theorem mm4_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand sits in the row the contraction position names … -/
theorem mm4_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and in column `i 1`. -/
theorem mm4_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, q)` of what the body stores for a tile `x0` of rows and the matrix `x1`: the change of float format is
    the identity on the extended reals and the accumulator starts at zero, so it is the plain sum of products. -/
theorem mm4_pay (x0 : Vec Ideal S10000x128 .f32) (x1 : Vec Ideal S128x128 .f32) (p : Fin 10000) (q : Fin 128) :
    k4_pay1 x0 x1 (ix2 p q) = ∑ k : Fin 128, x0 (ix2 p k) * x1 (ix2 k q) := by
  unfold k4_pay1
  simp only [shapeCast_self]
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm4_lhs_0 _ _
    | ⟨1, _⟩ => exact (mm4_lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm4_rhs_0 _ _).trans hk
    | ⟨1, _⟩ => exact mm4_rhs_1 _ _)
  rw [el, er]
  rfl

/-- So if the tile's row `p` is row `i 0` of `X` and the matrix's column `q` is column `i 1` of `W`, entry `(p, q)` of the
    tile's product is entry `i` of `X W`. -/
theorem mm4_block (X : S100000x128.Idx → EReal) (W : S128x128.Idx → EReal)
    (x0 : Vec Ideal S10000x128 .f32) (x1 : Vec Ideal S128x128 .f32) (i : S100000x128.Idx) (p : Fin 10000) (q : Fin 128)
    (h0 : ∀ k : Fin 128, x0 (ix2 p k) = X (ix2 (i 0) k)) (h1 : ∀ k : Fin 128, x1 (ix2 k q) = W (ix2 k (i 1))) :
    k4_pay1 x0 x1 (ix2 p q) = mmSpec X W i := by
  rw [mm4_pay]
  exact Finset.sum_congr rfl fun k _ => by rw [h0 k, h1 k]

/-! ## From the ten tiles to the array -/

theorem mm4_hz : (![0, 0] : Fin 2 → Nat) = fun _ => 0 := funext fun a => by fin_cases a <;> rfl

/-- The printed index maps, decided over the ten tiles: the tile of `x` moves with the output's tile down the rows, the
    matrix stays where it is, and tile `t` of the output is the `t`-th block of rows. -/
theorem mm4_idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What tile `t` writes back is tile `t` of `x W`, for `x` and `W` as the region finds them. -/
theorem mm4_flushed_eq (c : Dev nD) (t : Fin cfg4.N) :
    (dat4 (F := Ideal) V c).flushed 2 t = ((cfg4.win 2).blk t).view.read (Elt Ideal) (mmSpec (V c main_v71) (V c main_v73)) := by
  show (cfg4.win 2).cut (grid4.coords t) ((dat4 V c).after 2 t) = _
  rw [after4_2]
  unfold out4_2
  rw [View.canon_unit_zero mm4_hz]
  simp only [View.ld_unit_zero (S := S10000x128) mm4_hz, View.ld_unit_zero (S := S128x128) mm4_hz]
  obtain ⟨e0, e1, e2, e3, e4, e5⟩ := mm4_idx_facts t
  funext j
  obtain ⟨p, q, rfl⟩ : ∃ (p : Fin 10000) (q : Fin 128), j = ix2 p q := ⟨j 0, j 1, eq_ix2 j⟩
  refine mm4_block (V c main_v71) (V c main_v73) (iblk4 V c 0 t) (iblk4 V c 1 t) (((cfg4.win 2).blk t).view.emb (ix2 p q)) p q (fun k => ?_) (fun k => ?_)
  · show V c main_v71 (((cfg4.win 0).blk t).view.emb (ix2 p k)) = V c main_v71 (ix2 ((((cfg4.win 2).blk t).view.emb (ix2 p q)) 0) k)
    refine congrArg (V c main_v71) (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  · show V c main_v73 (((cfg4.win 1).blk t).view.emb (ix2 k q)) = V c main_v73 (ix2 k ((((cfg4.win 2).blk t).view.emb (ix2 p q)) 1))
    refine congrArg (V c main_v73) (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- An entry of the result is in tile `t` iff each of its coordinates is in the tile's range on that axis. -/
theorem mm4_mem_blk (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v74).slice (win4_2.rect t)).set ↔ _
  rw [View.set_slice_whole, Rect.mem_set_unit]
  exact Iff.rfl

/-- Every entry of the result is in some tile: row `r` is in tile `r / 10000`. -/
theorem mm4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 10 := N_4
  let t : Fin cfg4.N := ⟨(i 0).val / 10000, by show (i 0).val / 10000 < grid4.N; omega⟩
  obtain ⟨e0, e1, e2, e3, e4, e5⟩ := mm4_idx_facts t
  have ht : t.val = (i 0).val / 10000 := rfl
  refine ⟨t, flush4_2 t, ?_⟩
  rw [mm4_mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- After the ten tiles the result array is `x W`. -/
theorem mm4_final (c : Dev nD) :
    (dat4 (F := Ideal) V c).arrAt 2 cfg4.N = mmSpec (V c main_v71) (V c main_v73) :=
  (dat4 (F := Ideal) V c).arrAt_eq_of_cover 2 (mmSpec (V c main_v71) (V c main_v73)) (fun t _ => mm4_flushed_eq V c t) mm4_cover

end Cert.KernelIdeal.Val

end
-- ==== Proof.RegBr5.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (V : (c : Dev nD) → (b : Ref sig .tc) → Buf (Elt Ideal) ((c : Thread nD τ).loc b))

/-! ## Bias and relu: ten row tiles of `max (a + b, 0)` assemble the whole array

The body adds the one row `b` of the [1,128] operand to every row of its tile of `a` and takes the maximum with 0.
Tile `t` is rows `10000 t … 10000 t + 9999` of the [100000,128] arrays; the row operand is whole at every point. -/

/-- The zero offsets of a whole-buffer access, as the constant function. -/
theorem br5_zero_off : (![0, 0] : Fin 2 → Nat) = fun _ => 0 := funext fun a => by fin_cases a <;> rfl

/-- The body's stored value at row `p`, column `q` of a tile: the tile's entry plus the row operand's entry in
    column `q`, against 0 (the zero word is the extended real 0, and the maximum is the extended reals'). -/
theorem br5_pay_ix (x0 : Vec Ideal S10000x128 .f32) (x1 : Vec Ideal S1x128 .f32) (p : Fin 10000) (q : Fin 128) :
    k5_pay1 x0 x1 (ix2 p q) = max (x0 (ix2 p q) + x1 (ix2 (0 : Fin 1) q)) 0 := by
  unfold k5_pay1
  rw [maximumf_apply, addf_apply, shapeCast_self, shapeCast_self, broadcastTo_1b_ab_apply, broadcast_apply]
  show max _ (Ideal.ofBits .f32 0x00000000#32) = _
  rw [Ideal.ofBits_zero_f32]

/-- The same at any index `j` of the tile: only `j`'s column reaches the row operand. -/
theorem br5_pay_apply (x0 : Vec Ideal S10000x128 .f32) (x1 : Vec Ideal S1x128 .f32) (j : S10000x128.Idx) :
    k5_pay1 x0 x1 j = max (x0 j + x1 (ix2 (0 : Fin 1) (j 1))) 0 := by
  obtain ⟨p, q, rfl⟩ : ∃ (p : Fin 10000) (q : Fin 128), j = ix2 p q := ⟨j 0, j 1, eq_ix2 j⟩
  exact br5_pay_ix x0 x1 p q

/-- If the tile's entry at `j` is `a` at `i`, and the row operand in `j`'s column is `b` in `i`'s column, the stored
    value at `j` is the specification of `a`, `b` at `i`. -/
theorem br5_at (a : Cert.Spec.Arr Ideal S100000x128 .f32) (b : Cert.Spec.Arr Ideal S1x128 .f32)
    (x0 : Vec Ideal S10000x128 .f32) (x1 : Vec Ideal S1x128 .f32) (j : S10000x128.Idx) (i : S100000x128.Idx)
    (h0 : x0 j = a i) (h1 : x1 (ix2 (0 : Fin 1) (j 1)) = b (ix2 0 (i 1))) :
    k5_pay1 x0 x1 j = brSpec a b i := by
  rw [br5_pay_apply, h0, h1]; rfl

/-- The block indices over the grid: the two [100000,128] windows are at row block `t`, column block 0, at point `t`;
    the row operand's window stays at block (0, 0). -/
theorem br5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is tile `t` of `brSpec` of the two operand arrays as the region finds them: the input
    tile and the output tile sit over the same rows, and the row operand's block is the whole row. -/
theorem br5_flushed_eq (c : Dev nD) (t : Fin cfg5.N) :
    (dat5 (F := Ideal) V c).flushed 2 t
      = ((cfg5.win 2).blk t).view.read (Elt Ideal) (brSpec (V c main_v87) (V c main_v90)) := by
  show (cfg5.win 2).cut (grid5.coords t) ((dat5 (F := Ideal) V c).after 2 t) = _
  rw [after5_2]
  unfold out5_2
  rw [View.canon_unit_zero br5_zero_off]
  simp only [View.ld_unit_zero (S := S10000x128) br5_zero_off, View.ld_unit_zero (S := S1x128) br5_zero_off]
  obtain ⟨e00, e01, e10, e11, e20, e21⟩ := br5_idx t
  funext j
  show k5_pay1 (iblk5 V c 0 t) (iblk5 V c 1 t) j
    = brSpec (V c main_v87) (V c main_v90) (((cfg5.win 2).blk t).view.emb j)
  refine br5_at (V c main_v87) (V c main_v90) (iblk5 V c 0 t) (iblk5 V c 1 t) j _ ?_ ?_
  · show V c main_v87 (((cfg5.win 0).blk t).view.emb j) = V c main_v87 (((cfg5.win 2).blk t).view.emb j)
    refine congrArg (V c main_v87) ?_
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 128 + 1 * (j 1).val = win5_2.index t (1 : Fin 2) * 128 + 1 * (j 1).val; omega
  · show V c main_v90 (((cfg5.win 1).blk t).view.emb (ix2 (0 : Fin 1) (j 1)))
      = V c main_v90 (ix2 0 ((((cfg5.win 2).blk t).view.emb j) 1))
    refine congrArg (V c main_v90) ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the output array is in point `t`'s tile iff each coordinate is in the tile's range on its axis. -/
theorem br5_mem_blk (t : Fin cfg5.N) (i : S100000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v91).slice (win5_2.rect t)).set ↔ _
  rw [View.set_slice_whole, Rect.mem_set_unit]
  exact Iff.rfl

/-- The tiles cover the array: row `r` is in the tile of point `r / 10000`, and every point writes its tile back. -/
theorem br5_cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 10000 :=
    ⟨⟨(i 0).val / 10000, by rw [show cfg5.N = 10 from N_5]; omega⟩, rfl⟩
  obtain ⟨-, -, -, -, e20, e21⟩ := br5_idx t
  refine ⟨t, flush5_2 t, ?_⟩
  rw [br5_mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- After the region the output array holds `max (a + b, 0)` of the operand arrays as the region found them, index by index. -/
theorem br5_final (c : Dev nD) :
    (dat5 (F := Ideal) V c).arrAt 2 cfg5.N = brSpec (V c main_v87) (V c main_v90) :=
  (dat5 (F := Ideal) V c).arrAt_eq_of_cover 2 (brSpec (V c main_v87) (V c main_v90))
    (fun t _ => br5_flushed_eq V c t) br5_cover

end Cert.KernelIdeal.Val

end
-- ==== Proof.RegPool6.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

/-! # The pool region: the one-hot matrix transposed times the node features, accumulated over ten row tiles

Entry `(g, f)` of the pooled array is `∑ n, onehot (n, g) * h (n, f)` over the 100000 nodes. The region visits the
nodes in ten tiles of 10000 rows. At the first tile it clears its [128,128] block and adds the tile's product
`∑ r, onehot (10000 t + r, g) * h (10000 t + r, f)` to it; at every later tile it adds that tile's product to what the
tile before left. The block is written back once, after the last tile, and is the whole result array. So the array
ends at the sum of the ten tile products, which is the sum over all nodes cut into ten consecutive runs. Only
commutativity and associativity of `+` on the extended reals are used. -/

/-! ## A sum over consecutive runs -/

/-- A sum over the first `m * k` naturals is the sum, over `k` consecutive runs of `m`, of the runs' sums. -/
theorem pool6_sum_runs {β : Type*} [AddCommMonoid β] (F : ℕ → β) (m : ℕ) :
    ∀ k : ℕ, ∑ s ∈ Finset.range k, ∑ r ∈ Finset.range m, F (m * s + r) = ∑ n ∈ Finset.range (m * k), F n
  | 0 => by simp
  | k + 1 => by
    rw [Finset.sum_range_succ, pool6_sum_runs F m k, Nat.mul_succ, Finset.sum_range_add]

/-- Node `n`'s contribution to entry `(g, f)` of the pooled array; zero past the last node. -/
def pool6Term (h : Cert.Spec.Arr Ideal S100000x128 .f32) (oh : Cert.Spec.Arr Ideal S100000x128 .bf16) (g f : Fin 128) (n : ℕ) : EReal :=
  if hn : n < 100000 then oh (ix2 ⟨n, hn⟩ g) * h (ix2 ⟨n, hn⟩ f) else 0

/-- The pooled entry is the sum of the nodes' contributions. -/
theorem pool6_spec_apply (h : Cert.Spec.Arr Ideal S100000x128 .f32) (oh : Cert.Spec.Arr Ideal S100000x128 .bf16) (g f : Fin 128) :
    poolSpec h oh (ix2 g f) = ∑ n ∈ Finset.range 100000, pool6Term h oh g f n := by
  rw [Finset.sum_range]
  refine Finset.sum_congr rfl fun n _ => ?_
  unfold pool6Term
  rw [dif_pos n.isLt]

/-! ## The tile product at an index -/

theorem pool6_zero_off : (![0, 0] : Fin 2 → Nat) = fun _ => 0 := funext fun a => by fin_cases a <;> rfl

/-- The product contracts axis 0 of both tiles: on that axis each operand is read at the contraction position, -/
theorem pool6_lhs_0 (j : S128x128.Idx) (q : dot_S10000x128_S10000x128_S128x128_0_0_1_1_n_n.contr.Idx) :
    (dot_S10000x128_S10000x128_S128x128_0_0_1_1_n_n.lhsIdx j q 0).val = (q ⟨0, by decide⟩).val :=
  dot_S10000x128_S10000x128_S128x128_0_0_1_1_n_n.lhsIdx_val_of_single rfl j q
/-- and on axis 1 the left operand is read at the result's row, -/
theorem pool6_lhs_1 (j : S128x128.Idx) (q : dot_S10000x128_S10000x128_S128x128_0_0_1_1_n_n.contr.Idx) :
    (dot_S10000x128_S10000x128_S128x128_0_0_1_1_n_n.lhsIdx j q 1).val = (j 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
theorem pool6_rhs_0 (j : S128x128.Idx) (q : dot_S10000x128_S10000x128_S128x128_0_0_1_1_n_n.contr.Idx) :
    (dot_S10000x128_S10000x128_S128x128_0_0_1_1_n_n.rhsIdx j q 0).val = (q ⟨0, by decide⟩).val :=
  dot_S10000x128_S10000x128_S128x128_0_0_1_1_n_n.rhsIdx_val_of_single rfl j q
/-- the right operand at the result's column. -/
theorem pool6_rhs_1 (j : S128x128.Idx) (q : dot_S10000x128_S10000x128_S128x128_0_0_1_1_n_n.contr.Idx) :
    (dot_S10000x128_S10000x128_S128x128_0_0_1_1_n_n.rhsIdx j q 1).val = (j 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The tile product at `(g, f)`: column `g` of the one-hot tile against column `f` of the feature tile. -/
theorem pool6_product_apply (a : FVec Ideal S10000x128 .bf16) (b : FVec Ideal S10000x128 .bf16) (g f : Fin 128) :
    FloatOps.matmul dot_S10000x128_S10000x128_S128x128_0_0_1_1_n_n none a b (constant (F := Ideal) S128x128 .f32 0x00000000#32) (ix2 g f)
      = ∑ r : Fin 10000, a (ix2 r g) * b (ix2 r f) := by
  rw [Ideal.matmul_constant_zero_apply, ← Equiv.sum_comp (contrEquiv1 dot_S10000x128_S10000x128_S128x128_0_0_1_1_n_n 10000 rfl rfl).symm]
  refine Finset.sum_congr rfl fun k _ => ?_
  have hk := contrEquiv1_symm_val dot_S10000x128_S10000x128_S128x128_0_0_1_1_n_n 10000 rfl rfl k
  have el : dot_S10000x128_S10000x128_S128x128_0_0_1_1_n_n.lhsIdx (ix2 g f) ((contrEquiv1 dot_S10000x128_S10000x128_S128x128_0_0_1_1_n_n 10000 rfl rfl).symm k) = ix2 k g := funext fun a => Fin.ext (by
    match a with
    | ⟨0, _⟩ => exact (pool6_lhs_0 _ _).trans hk
    | ⟨1, _⟩ => exact pool6_lhs_1 _ _)
  have er : dot_S10000x128_S10000x128_S128x128_0_0_1_1_n_n.rhsIdx (ix2 g f) ((contrEquiv1 dot_S10000x128_S10000x128_S128x128_0_0_1_1_n_n 10000 rfl rfl).symm k) = ix2 k f := funext fun a => Fin.ext (by
    match a with
    | ⟨0, _⟩ => exact (pool6_rhs_0 _ _).trans hk
    | ⟨1, _⟩ => exact pool6_rhs_1 _ _)
  rw [el, er]

/-- What the accumulating store writes at `(g, f)`: the block's entry plus the tile product (the format change of the
    features is the identity on the extended reals). -/
theorem pool6_add_apply (x0 : Vec Ideal S10000x128 .f32) (x1 : Vec Ideal S10000x128 .bf16) (x2 : Vec Ideal S128x128 .f32) (g f : Fin 128) :
    k6_pay2 (F := Ideal) x0 x1 x2 (ix2 g f) = x2 (ix2 g f) + ∑ r : Fin 10000, x1 (ix2 r g) * x0 (ix2 r f) := by
  unfold k6_pay2
  refine (addf_apply _ _ (ix2 g f)).trans ?_
  refine congrArg₂ (· + ·) ?_ ?_
  · exact congrFun (shapeCast_self x2 _) (ix2 g f)
  · refine (pool6_product_apply _ _ g f).trans ?_
    refine Finset.sum_congr rfl fun r _ => ?_
    refine congrArg₂ (· * ·) ?_ ?_
    · exact congrFun (shapeCast_self x1 _) (ix2 r g)
    · exact congrFun (shapeCast_self x0 _) (ix2 r f)

/-- The clearing store writes zero everywhere. -/
theorem pool6_clear_apply (g f : Fin 128) : k6_pay1 (F := Ideal) (ix2 g f) = 0 := by
  unfold k6_pay1
  exact Ideal.ofBits_zero_f32

/-! ## What each case of the body leaves in the block -/

section Pieces
variable {F : FTy → Type} [FloatOps F]

/-- At the first tile the block is cleared and read back, then the tile product is added to it. -/
theorem pool6_first_case (c : Dev nD) (i : grid6.Coords) (a1 : Memref sig .tc .vmem S10000x128 .f32) (h1 : a1.IsWhole)
    (a2 : Memref sig .tc .vmem S10000x128 .bf16) (h2 : a2.IsWhole) (a3 : Memref sig .tc .vmem S128x128 .f32) (h3 : a3.IsWhole)
    (hc : cond6_0 i) (x0 : Vec F S10000x128 .f32) (x1 : Vec F S10000x128 .bf16) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S128x128) pool6_zero_off, View.readCov_unit_zero (S := S128x128) _ pool6_zero_off]
  simp only [View.readAt_eq_ld, h1.read_unread, h2.read_unread, View.ld_unit_zero (S := S10000x128) pool6_zero_off]

/-- At a later tile the tile product is added to what the block held. -/
theorem pool6_later_case (c : Dev nD) (i : grid6.Coords) (a1 : Memref sig .tc .vmem S10000x128 .f32) (h1 : a1.IsWhole)
    (a2 : Memref sig .tc .vmem S10000x128 .bf16) (h2 : a2.IsWhole) (a3 : Memref sig .tc .vmem S128x128 .f32) (h3 : a3.IsWhole)
    (hc : ¬cond6_0 i) (x0 : Vec F S10000x128 .f32) (x1 : Vec F S10000x128 .bf16) (xo : Vec F S128x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero (S := S128x128) pool6_zero_off]
  simp only [View.readAt_eq_ld, h1.read_unread, h2.read_unread, h3.read_unread, View.ld_unit_zero (S := S10000x128) pool6_zero_off,
    View.ld_unit_zero (S := S128x128) pool6_zero_off]

end Pieces

variable (V : (c : Dev nD) → (b : Ref sig .tc) → Buf (Elt Ideal) ((c : Thread nD τ).loc b))

/-! ## The tiles: rows `10000 t …` of the two arrays -/

/-- The node features and the one-hot matrix as the region finds them, -/
abbrev pool6Feat (c : Dev nD) : Cert.Spec.Arr Ideal S100000x128 .f32 := V c main_v91
abbrev pool6Onehot (c : Dev nD) : Cert.Spec.Arr Ideal S100000x128 .bf16 := V c main_v98
/-- and their tiles at point `t`. -/
abbrev pool6FeatTile (c : Dev nD) (t : Fin cfg6.N) : Vec Ideal S10000x128 .f32 := iblk6 V c 0 t
abbrev pool6OnehotTile (c : Dev nD) (t : Fin cfg6.N) : Vec Ideal S10000x128 .bf16 := iblk6 V c 1 t

/-- Tile `t` of either input starts at row block `t`, column block 0 — decided over the ten points. -/
theorem pool6_tile_index : ∀ t : Fin cfg6.N,
    (win6_0.index t 0 = t.val ∧ win6_0.index t 1 = 0) ∧ (win6_1.index t 0 = t.val ∧ win6_1.index t 1 = 0) :=
  (by decide +kernel : ∀ t : Fin grid6.N,
    (win6_0.index t 0 = t.val ∧ win6_0.index t 1 = 0) ∧ (win6_1.index t 0 = t.val ∧ win6_1.index t 1 = 0))

/-- Row `r` of the feature tile at point `t` is node `10000 t + r`'s row. -/
theorem pool6_feat_tile_apply (c : Dev nD) (t : Fin cfg6.N) (r : Fin 10000) (f : Fin 128) (hb : 10000 * t.val + r.val < 100000) :
    pool6FeatTile V c t (ix2 r f) = pool6Feat V c (ix2 ⟨10000 * t.val + r.val, hb⟩ f) := by
  unfold pool6FeatTile pool6Feat iblk6
  rw [View.read_apply]
  show V c main_v91 _ = V c main_v91 _
  congr 1
  funext a
  apply Fin.ext
  match a with
  | ⟨0, _⟩ => show win6_0.index t 0 * 10000 + 1 * r.val = 10000 * t.val + r.val; rw [(pool6_tile_index t).1.1]; omega
  | ⟨1, _⟩ => show win6_0.index t 1 * 128 + 1 * f.val = f.val; rw [(pool6_tile_index t).1.2]; omega

/-- Row `r` of the one-hot tile at point `t` is node `10000 t + r`'s row. -/
theorem pool6_onehot_tile_apply (c : Dev nD) (t : Fin cfg6.N) (r : Fin 10000) (g : Fin 128) (hb : 10000 * t.val + r.val < 100000) :
    pool6OnehotTile V c t (ix2 r g) = pool6Onehot V c (ix2 ⟨10000 * t.val + r.val, hb⟩ g) := by
  unfold pool6OnehotTile pool6Onehot iblk6
  rw [View.read_apply]
  show V c main_v98 _ = V c main_v98 _
  congr 1
  funext a
  apply Fin.ext
  match a with
  | ⟨0, _⟩ => show win6_1.index t 0 * 10000 + 1 * r.val = 10000 * t.val + r.val; rw [(pool6_tile_index t).2.1]; omega
  | ⟨1, _⟩ => show win6_1.index t 1 * 128 + 1 * g.val = g.val; rw [(pool6_tile_index t).2.2]; omega

/-- The product of the two tiles at point `t` is the sum of the contributions of nodes `10000 t … 10000 t + 9999`. -/
theorem pool6_tile_sum (c : Dev nD) (t : Fin cfg6.N) (g f : Fin 128) :
    ∑ r : Fin 10000, pool6OnehotTile V c t (ix2 r g) * pool6FeatTile V c t (ix2 r f)
      = ∑ r ∈ Finset.range 10000, pool6Term (pool6Feat V c) (pool6Onehot V c) g f (10000 * t.val + r) := by
  have hN : t.val < 10 := lt_of_lt_of_eq t.isLt (show cfg6.N = 10 from N_6)
  rw [Finset.sum_range]
  refine Finset.sum_congr rfl fun r _ => ?_
  have hb : 10000 * t.val + r.val < 100000 := by have := r.isLt; omega
  rw [pool6_feat_tile_apply V c t r f hb, pool6_onehot_tile_apply V c t r g hb]
  unfold pool6Term
  rw [dif_pos hb]

/-! ## The block after each point -/

/-- After the first tile the block holds that tile's product. -/
theorem pool6_after_first (c : Dev nD) (t : Fin cfg6.N) (h0 : t.val % 10 = 0) (g f : Fin 128) :
    outsAt6 V c t.val t.isLt (ix2 g f)
      = ∑ r ∈ Finset.range 10000, pool6Term (pool6Feat V c) (pool6Onehot V c) g f (10000 * t.val + r) := by
  rw [outsAt6_A V c t h0]
  refine (congrFun (pool6_first_case (F := Ideal) c (grid6.coords t) (ms6_0 t) (hs6_0 t) (ms6_1 t) (hs6_1 t) (ms6_2 t) (hs6_2 t)
    ((hcond6_0 t).mpr h0) (iblk6 V c 0 t) (iblk6 V c 1 t)) (ix2 g f)).trans ?_
  refine (pool6_add_apply (pool6FeatTile V c t) (pool6OnehotTile V c t) (k6_pay1 (F := Ideal)) g f).trans ?_
  rw [pool6_clear_apply, zero_add]
  exact pool6_tile_sum V c t g f

/-- After a later tile it holds what the tile before left plus this tile's product. -/
theorem pool6_after_later (c : Dev nD) (t : Fin cfg6.N) (h0 : ¬t.val % 10 = 0) (g f : Fin 128) :
    outsAt6 V c t.val t.isLt (ix2 g f)
      = outsAt6 V c (t.val - 1) (Nat.lt_of_le_of_lt (Nat.sub_le _ _) t.isLt) (ix2 g f)
        + ∑ r ∈ Finset.range 10000, pool6Term (pool6Feat V c) (pool6Onehot V c) g f (10000 * t.val + r) := by
  rw [outsAt6_B V c t h0]
  refine (congrFun (pool6_later_case (F := Ideal) c (grid6.coords t) (ms6_0 t) (hs6_0 t) (ms6_1 t) (hs6_1 t) (ms6_2 t) (hs6_2 t)
    (fun h => h0 ((hcond6_0 t).mp h)) (iblk6 V c 0 t) (iblk6 V c 1 t)
    (outsAt6 V c (t.val - 1) (Nat.lt_of_le_of_lt (Nat.sub_le _ _) t.isLt))) (ix2 g f)).trans ?_
  refine (pool6_add_apply (pool6FeatTile V c t) (pool6OnehotTile V c t)
    (outsAt6 V c (t.val - 1) (Nat.lt_of_le_of_lt (Nat.sub_le _ _) t.isLt)) g f).trans ?_
  rw [pool6_tile_sum V c t g f]

/-- So after point `n` the block holds the products of tiles `0 … n`: by induction on the point. -/
theorem pool6_after_apply (c : Dev nD) (g f : Fin 128) : ∀ (n : ℕ) (hn : n < cfg6.N),
    outsAt6 V c n hn (ix2 g f)
      = ∑ s ∈ Finset.range (n + 1), ∑ r ∈ Finset.range 10000, pool6Term (pool6Feat V c) (pool6Onehot V c) g f (10000 * s + r)
  | 0, hn => by
    rw [Finset.sum_range_one]
    exact pool6_after_first V c ⟨0, hn⟩ rfl g f
  | n + 1, hn => by
    have hN : cfg6.N = 10 := N_6
    have hB : ¬(⟨n + 1, hn⟩ : Fin cfg6.N).val % 10 = 0 := by dsimp only; omega
    rw [Finset.sum_range_succ _ (n + 1)]
    refine (pool6_after_later V c ⟨n + 1, hn⟩ hB g f).trans ?_
    show outsAt6 V c n _ (ix2 g f) + _ = _
    rw [pool6_after_apply c g f n]

/-- After the last point the block is the pooled array. -/
theorem pool6_after_last (c : Dev nD) (n : ℕ) (hn : n < cfg6.N) (h9 : n = 9) :
    outsAt6 V c n hn = poolSpec (V c main_v91) (V c main_v98) := by
  subst h9
  funext j
  obtain ⟨g, f, rfl⟩ : ∃ (g : Fin 128) (f : Fin 128), j = ix2 g f := ⟨j 0, j 1, eq_ix2 j⟩
  rw [pool6_after_apply V c g f 9 hn, pool6_sum_runs _ 10000 10, pool6_spec_apply]

/-! ## The result array -/

/-- The one write-back, after the last point, writes the block as it stands: the block is the whole array. -/
theorem pool6_flushed (c : Dev nD) (t : Fin cfg6.N) (hf : (cfg6.win 2).flush t = true) :
    (dat6 V c).flushed 2 t = ((cfg6.win 2).blk t).view.read (Elt Ideal) (poolSpec (V c main_v91) (V c main_v98)) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2, pool6_after_last V c t6_9.val t6_9.isLt rfl]
  have hz' : (fun a => win6_2.index t6_9 a * main_v99.ty.shape.size a) = fun _ => 0 := funext fun a => by fin_cases a <;> decide
  exact (Memref.read_access_unit_zero (Elt Ideal) main_v99 hz' (fun a => by rw [congrFun hz' a]; simp)
    (poolSpec (V c main_v91) (V c main_v98))).symm

/-- Every entry of the result array lies in that block. -/
theorem pool6_mem_block (i : S128x128.Idx) : i ∈ ((cfg6.win 2).blk t6_9).view.set := by
  show i ∈ ((View.whole main_v99).slice (win6_2.rect t6_9)).set
  rw [View.set_slice_whole, Rect.mem_set_unit]
  have e0 : ∀ a : Fin 2, win6_2.index t6_9 a * win6_2.size a = 0 := by decide +kernel
  have e1 : ∀ a : Fin 2, win6_2.xsize (grid6.coords t6_9) a = 128 := by decide +kernel
  intro a
  show win6_2.index t6_9 a * win6_2.size a ≤ (i a : Nat) ∧ (i a : Nat) < win6_2.index t6_9 a * win6_2.size a + win6_2.xsize (grid6.coords t6_9) a
  rw [e0 a, e1 a]
  have hi : (i a : Nat) < 128 := by
    match a with
    | ⟨0, _⟩ => exact (i 0).isLt
    | ⟨1, _⟩ => exact (i 1).isLt
  omega

theorem pool6_final (c : Dev nD) :
    (dat6 (F := Ideal) V c).arrAt 2 cfg6.N = poolSpec (V c main_v91) (V c main_v98) :=
  (dat6 V c).arrAt_eq_of_cover 2 (poolSpec (V c main_v91) (V c main_v98)) (pool6_flushed V c) fun i =>
    ⟨t6_9, (flush6_2 t6_9).mpr rfl, pool6_mem_block i⟩

end Cert.KernelIdeal.Val

end
-- ==== Proof.RegFin7.lean ====
import proofs.«403458_j76407468195987_1_alg».proof.Proof.Gen.KernelIdeal.Frame
import proofs.«403458_j76407468195987_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

/-! ## The head's product, entry by entry

The last region multiplies the pooled [128,128] matrix by the [128,10] weight matrix, contracting the
pooled matrix's second axis against the weights' first, and adds the [1,10] bias row to every row. -/

/-- The left operand is read at the result's row … -/
theorem fin7_lhs_row (i : S128x10.Idx) (q : dot_S128x128_S128x10_S128x10_1_0_0_1_n_n.contr.Idx) :
    (dot_S128x128_S128x10_S128x10_1_0_0_1_n_n.lhsIdx i q 0).val = (i 0).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl
/-- … and the summation index; -/
theorem fin7_lhs_shared (i : S128x10.Idx) (q : dot_S128x128_S128x10_S128x10_1_0_0_1_n_n.contr.Idx) :
    (dot_S128x128_S128x10_S128x10_1_0_0_1_n_n.lhsIdx i q 1).val = (q ⟨0, by decide⟩).val :=
  dot_S128x128_S128x10_S128x10_1_0_0_1_n_n.lhsIdx_val_of_single rfl i q
/-- the right operand at the summation index … -/
theorem fin7_rhs_shared (i : S128x10.Idx) (q : dot_S128x128_S128x10_S128x10_1_0_0_1_n_n.contr.Idx) :
    (dot_S128x128_S128x10_S128x10_1_0_0_1_n_n.rhsIdx i q 0).val = (q ⟨0, by decide⟩).val :=
  dot_S128x128_S128x10_S128x10_1_0_0_1_n_n.rhsIdx_val_of_single rfl i q
/-- … and the result's column. -/
theorem fin7_rhs_col (i : S128x10.Idx) (q : dot_S128x128_S128x10_S128x10_1_0_0_1_n_n.contr.Idx) :
    (dot_S128x128_S128x10_S128x10_1_0_0_1_n_n.rhsIdx i q 1).val = (i 1).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-- The matrix product into a zero accumulator at entry (p, q): the sum over the 128 shared positions. -/
theorem fin7_product_apply (a : FVec Ideal S128x128 .bf16) (b : FVec Ideal S128x10 .bf16) (p : Fin 128) (q : Fin 10) :
    matmul dot_S128x128_S128x10_S128x10_1_0_0_1_n_n none a b (constant S128x10 .f32 0x00000000#32) (ix2 p q)
      = ∑ k : Fin 128, a (ix2 p k) * b (ix2 k q) := by
  simp only [matmul]
  rw [Ideal.matmul_constant_zero_apply, ← Equiv.sum_comp (ValueIdx.contrEquiv1 dot_S128x128_S128x10_S128x10_1_0_0_1_n_n 128 rfl rfl).symm]
  refine Finset.sum_congr rfl fun k _ => ?_
  have hk := ValueIdx.contrEquiv1_symm_val dot_S128x128_S128x10_S128x10_1_0_0_1_n_n 128 rfl rfl k
  have el : dot_S128x128_S128x10_S128x10_1_0_0_1_n_n.lhsIdx (ix2 p q) ((ValueIdx.contrEquiv1 dot_S128x128_S128x10_S128x10_1_0_0_1_n_n 128 rfl rfl).symm k) = ix2 p k := funext fun a => Fin.ext (by
    match a with
    | ⟨0, _⟩ => exact fin7_lhs_row _ _
    | ⟨1, _⟩ => exact (fin7_lhs_shared _ _).trans hk)
  have er : dot_S128x128_S128x10_S128x10_1_0_0_1_n_n.rhsIdx (ix2 p q) ((ValueIdx.contrEquiv1 dot_S128x128_S128x10_S128x10_1_0_0_1_n_n 128 rfl rfl).symm k) = ix2 k q := funext fun a => Fin.ext (by
    match a with
    | ⟨0, _⟩ => exact (fin7_rhs_shared _ _).trans hk
    | ⟨1, _⟩ => exact fin7_rhs_col _ _)
  rw [el, er]

/-- What the body stores, entry by entry: row p of the pooled matrix against column q of the weights, plus the
    bias row's entry q. -/
theorem fin7_stored_apply (x0 : Vec Ideal S128x128 .f32) (x1 : Vec Ideal S128x10 .f32) (x2 : Vec Ideal S1x10 .f32)
    (p : Fin 128) (q : Fin 10) :
    k7_pay1 (F := Ideal) x0 x1 x2 (ix2 p q) = (∑ k : Fin 128, x0 (ix2 p k) * x1 (ix2 k q)) + x2 (ix2 0 q) := by
  unfold k7_pay1
  rw [addf_apply, fin7_product_apply, shapeCast_self, shapeCast_self,
    broadcastTo_apply x2 broadcasts_S1x10_S128x10 (ix2 p q) (ix2 0 q) (fun a => by
      match a with
      | ⟨0, _⟩ => rfl
      | ⟨1, _⟩ => rfl)]
  rfl

/-- The body's stored block is the head of its three loaded blocks, as whole arrays. -/
theorem fin7_stored_eq (x0 : Vec Ideal S128x128 .f32) (x1 : Vec Ideal S128x10 .f32) (x2 : Vec Ideal S1x10 .f32) :
    k7_pay1 (F := Ideal) x0 x1 x2 = finSpec x0 x1 x2 := by
  funext j
  obtain ⟨p, q, rfl⟩ : ∃ (p : Fin 128) (q : Fin 10), j = ix2 p q := ⟨j 0, j 1, eq_ix2 j⟩
  exact fin7_stored_apply x0 x1 x2 p q

/-! ## From the one block to the array

The grid has one point, and at it each of the four windows is its whole array: block index 0 on both axes. -/

theorem fin7_zero_offsets : (![0, 0] : Fin 2 → Nat) = fun _ => 0 := funext fun a => by fin_cases a <;> rfl

/-- The printed index maps at every point of the grid: all zero. -/
theorem fin7_index_zero : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

variable (V : (c : Dev nD) → (b : Ref sig .tc) → Buf (Elt Ideal) ((c : Thread nD τ).loc b))

/-- The pooled matrix's window at the point is the whole pooled matrix. -/
theorem fin7_pooled_block (c : Dev nD) (t : Fin cfg7.N) :
    (iblk7 V c 0 t : Vec Ideal S128x128 .f32) = V c main_v99 := by
  funext y
  show V c main_v99 (((cfg7.win 0).blk t).view.emb y) = V c main_v99 y
  refine congrArg _ (funext fun a => Fin.ext ?_)
  obtain ⟨e00, e01, -⟩ := fin7_index_zero t
  match a with
  | ⟨0, _⟩ => show win7_0.index t (0 : Fin 2) * 128 + 1 * (y 0).val = (y 0).val; omega
  | ⟨1, _⟩ => show win7_0.index t (1 : Fin 2) * 128 + 1 * (y 1).val = (y 1).val; omega

/-- The weights' window at the point is the whole weight matrix. -/
theorem fin7_weights_block (c : Dev nD) (t : Fin cfg7.N) :
    (iblk7 V c 1 t : Vec Ideal S128x10 .f32) = V c main_arg5 := by
  funext y
  show V c main_arg5 (((cfg7.win 1).blk t).view.emb y) = V c main_arg5 y
  refine congrArg _ (funext fun a => Fin.ext ?_)
  obtain ⟨-, -, e10, e11, -⟩ := fin7_index_zero t
  match a with
  | ⟨0, _⟩ => show win7_1.index t (0 : Fin 2) * 128 + 1 * (y 0).val = (y 0).val; omega
  | ⟨1, _⟩ => show win7_1.index t (1 : Fin 2) * 10 + 1 * (y 1).val = (y 1).val; omega

/-- The bias row's window at the point is the whole row. -/
theorem fin7_bias_block (c : Dev nD) (t : Fin cfg7.N) :
    (iblk7 V c 2 t : Vec Ideal S1x10 .f32) = V c main_v100 := by
  funext y
  show V c main_v100 (((cfg7.win 2).blk t).view.emb y) = V c main_v100 y
  refine congrArg _ (funext fun a => Fin.ext ?_)
  obtain ⟨-, -, -, -, e20, e21, -⟩ := fin7_index_zero t
  match a with
  | ⟨0, _⟩ => show win7_2.index t (0 : Fin 2) * 1 + 1 * (y 0).val = (y 0).val; omega
  | ⟨1, _⟩ => show win7_2.index t (1 : Fin 2) * 10 + 1 * (y 1).val = (y 1).val; omega

/-- What the point writes back is the head of the three arrays, read through the output's (whole-array) block. -/
theorem fin7_flushed (c : Dev nD) (t : Fin cfg7.N) :
    (dat7 (F := Ideal) V c).flushed 3 t
      = ((cfg7.win 3).blk t).view.read (Elt Ideal) (finSpec (V c main_v99) (V c main_arg5) (V c main_v100)) := by
  show (cfg7.win 3).cut (grid7.coords t) ((dat7 V c).after 3 t) = _
  rw [after7_3]
  unfold out7_3
  rw [View.canon_unit_zero fin7_zero_offsets]
  simp only [View.ld_unit_zero (S := S128x128) fin7_zero_offsets, View.ld_unit_zero (S := S128x10) fin7_zero_offsets,
    View.ld_unit_zero (S := S1x10) fin7_zero_offsets]
  rw [fin7_pooled_block V c t, fin7_weights_block V c t, fin7_bias_block V c t, fin7_stored_eq]
  funext j
  show finSpec (V c main_v99) (V c main_arg5) (V c main_v100) j
    = finSpec (V c main_v99) (V c main_arg5) (V c main_v100) (((cfg7.win 3).blk t).view.emb j)
  refine congrArg _ (funext fun a => Fin.ext ?_)
  obtain ⟨-, -, -, -, -, -, e30, e31⟩ := fin7_index_zero t
  match a with
  | ⟨0, _⟩ => show (j 0).val = win7_3.index t (0 : Fin 2) * 128 + 1 * (j 0).val; omega
  | ⟨1, _⟩ => show (j 1).val = win7_3.index t (1 : Fin 2) * 10 + 1 * (j 1).val; omega

/-- An index of the result is in the point's block iff each coordinate is in the block's range on its axis. -/
theorem fin7_mem_block (t : Fin cfg7.N) (i : S128x10.Idx) :
    i ∈ ((cfg7.win 3).blk t).view.set ↔ ∀ a : Fin 2, win7_3.index t a * S128x10.size a ≤ (i a).val ∧ (i a).val < win7_3.index t a * S128x10.size a + S128x10.size a := by
  show i ∈ ((View.whole main_v101).slice (win7_3.rect t)).set ↔ _
  rw [View.set_slice_whole, Rect.mem_set_unit]
  exact Iff.rfl

/-- The one block is the whole result: every index is written back by the grid's point. -/
theorem fin7_cover (i : S128x10.Idx) :
    ∃ t : Fin cfg7.N, (cfg7.win 3).flush t = true ∧ i ∈ ((cfg7.win 3).blk t).view.set := by
  refine ⟨t7_0, flush7_3 t7_0, ?_⟩
  rw [fin7_mem_block]
  obtain ⟨-, -, -, -, -, -, e30, e31⟩ := fin7_index_zero t7_0
  have hi0 : (i 0).val < 128 := (i 0).isLt
  have hi1 : (i 1).val < 10 := (i 1).isLt
  intro a
  match a with
  | ⟨0, _⟩ => show win7_3.index t7_0 (0 : Fin 2) * 128 ≤ (i 0).val ∧ (i 0).val < win7_3.index t7_0 (0 : Fin 2) * 128 + 128; omega
  | ⟨1, _⟩ => show win7_3.index t7_0 (1 : Fin 2) * 10 ≤ (i 1).val ∧ (i 1).val < win7_3.index t7_0 (1 : Fin 2) * 10 + 10; omega

/-- After the region the result array holds the head of the pooled matrix, the weights and the bias row. -/
theorem fin7_final (c : Dev nD) :
    (dat7 (F := Ideal) V c).arrAt 3 cfg7.N = finSpec (V c main_v99) (V c main_arg5) (V c main_v100) :=
  (dat7 (F := Ideal) V c).arrAt_eq_of_cover 3 (finSpec (V c main_v99) (V c main_arg5) (V c main_v100))
    (fun t _ => fin7_flushed V c t) fin7_cover

end Cert.KernelIdeal.Val

end
-- ==== Proof.KHost0.lean ====
import proofs.«403458_j76407468195987_1_alg».proof.Proof.Gen.KernelIdeal.Launch
import proofs.«403458_j76407468195987_1_alg».proof.Proof.Spec
import Idealize.ShloMosaic.Lib.StableHlo.Run

/-!
# The host operations before the first matrix-product region

Before its first region the kernel's program prepares, from the edge list, the message sources and the aggregation
targets (a row of the edge list followed by one self loop per node), the in-degree of every node and its inverse square
root (zero where the degree is not positive), the normalisation `dinv (source) * dinv (target)` of every message with
negative node indices counted from the end, and the first layer's weight matrix. These are the same operations on the
same operands as the specification's `srcOf`, `dstOf`, `normOf` and `w0Of`: read back operation by operation, each of
those buffers holds that function of the arguments as they were, term for term. None of the operations writes an
argument.
-/

set_option maxRecDepth 16384

noncomputable section

open scoped BigOperators

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The buffers after @main's first three stretches of host operations (before the first region). -/
abbrev pre : Valuation τ sig (Elt F) := StableHlo.after hostOps0_2 (StableHlo.after hostOps0_1 (StableHlo.after hostOps0 W))

/-- The message sources. -/
theorem pre_src : pre W (Proc.devRef .tc main_v3) = Cert.Spec.srcOf (W (Proc.devRef .tc main_arg1)) := by
  dsimp only [pre, hostOps0, hostOps0_1, hostOps0_2]
  after_results_simp
  rfl
/-- The aggregation targets. -/
theorem pre_dst : pre W (Proc.devRef .tc main_v6) = Cert.Spec.dstOf (W (Proc.devRef .tc main_arg1)) := by
  dsimp only [pre, hostOps0, hostOps0_1, hostOps0_2]
  after_results_simp
  rfl
set_option maxHeartbeats 1000000 in
/-- The normalisation of every message. -/
theorem pre_nrm : pre W (Proc.devRef .tc main_v31) = Cert.Spec.normOf (Cert.Spec.srcOf (W (Proc.devRef .tc main_arg1))) (Cert.Spec.dstOf (W (Proc.devRef .tc main_arg1))) := by
  dsimp only [pre, hostOps0, hostOps0_1, hostOps0_2]
  after_results_simp
  simp only [TRef.ofBuf, TRef.toBuf, cast_eq]
  rfl
/-- The first layer's weight matrix. -/
theorem pre_w0 : pre W (Proc.devRef .tc main_v33) = Cert.Spec.w0Of (W (Proc.devRef .tc main_arg3)) := by
  dsimp only [pre, hostOps0, hostOps0_1, hostOps0_2]
  after_results_simp
  rfl
set_option maxHeartbeats 1000000 in
/-- The three stretches write no argument. -/
theorem pre_keep (b : Ref sig .tc) (hb : b ∈ [main_arg0, main_arg1, main_arg2, main_arg3, main_arg4, main_arg5, main_arg6]) :
    pre W (Proc.devRef .tc b) = W (Proc.devRef .tc b) := by
  simp only [List.mem_cons, List.not_mem_nil, or_false] at hb
  rcases hb with rfl | rfl | rfl | rfl | rfl | rfl | rfl <;>
    · dsimp only [pre, hostOps0, hostOps0_1, hostOps0_2]
      after_results_simp

end Cert.KernelIdeal.Val

end
-- ==== Proof.KHost12.lean ====
import proofs.«403458_j76407468195987_1_alg».proof.Proof.Gen.KernelIdeal.Launch
import proofs.«403458_j76407468195987_1_alg».proof.Proof.Spec
import Idealize.ShloMosaic.Lib.StableHlo.Run

set_option maxRecDepth 16384

noncomputable section

open scoped BigOperators

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! # Host stretches 1 and 2 of the kernel's program

Stretch 1 wraps the message sources, gathers the rows of the layer's product, scales them by the normalisation,
scatter-adds them at the targets, and cuts the layer's bias out of the stacked biases as a [1,128] row. Stretch 2
cuts the next layer's weight matrix out of the stacked weights. Each is the specification's host function of the
buffers it reads, for any contents of those buffers. -/

/-- The neighbour sum, as the stretch spells it over its own shape names, is the specification's. -/
theorem h1_agg_eq (sv dv : Cert.Spec.Arr F S740000 .i32) (nv : Cert.Spec.Arr F S740000 .f32) (y : Cert.Spec.Arr F S100000x128 .f32) :
    Host.scatterAdd scatter_S100000x128_S740000x1_S740000x128_1_0_0_1
      (broadcastInDim S100000x128 ![] bcast_S_S100000x128 (constant S_ FTy.f32 0#32))
      (broadcastInDim S740000x1 ![0] bcast_S740000_S740000x1_0 dv)
      (mulf
        (Host.gather gather_S100000x128_S740000x1_S740000x128_1_0_n_n_0_1_1128 y
          (broadcastInDim S740000x1 ![0] bcast_S740000_S740000x1_0
            (select (cmpi CmpIPredicate.slt sv (broadcastInDim S740000 ![] bcast_S_S740000 (constantI S_ 32 0#32)))
              (addi sv (broadcastInDim S740000 ![] bcast_S_S740000 (constantI S_ 32 100000#32))) sv)))
        (broadcastInDim S740000x128 ![0, 1] bcast_S740000x1_S740000x128_0_1
          (broadcastInDim S740000x1 ![0] bcast_S740000_S740000x1_0 nv)))
      = Cert.Spec.agg sv dv nv y := rfl

/-- The bias row, as the stretch spells it, is the specification's. -/
theorem h1_row_eq (bs : Cert.Spec.Arr F S3x128 .f32) :
    shapeCast S1x128 (shapeCast S128 (extractStridedSlice S1x128 ![0, 0] bs slices_S3x128_S1x128_0_0) shapeCasts_S1x128_S128)
      shapeCasts_S128_S1x128 = Cert.Spec.rowOf (Cert.Spec.b0Of bs) := rfl

/-- The weight matrix, as the stretch spells it, is the specification's. -/
theorem h2_w_eq (ws : Cert.Spec.Arr F S3x128x128 .f32) :
    shapeCast S128x128 (extractStridedSlice S1x128x128 ![1, 0, 0] ws slices_S3x128x128_S1x128x128_1_0_0) shapeCasts_S1x128x128_S128x128
      = Cert.Spec.w1Of ws := rfl

/-- The neighbour sum of the layer's product, written by this stretch. -/
theorem h1_agg : StableHlo.after hostOps1 W (Proc.devRef .tc main_v47) = Cert.Spec.agg (W (Proc.devRef .tc main_v3)) (W (Proc.devRef .tc main_v6)) (W (Proc.devRef .tc main_v31)) (W (Proc.devRef .tc main_v34)) := by
  dsimp only [hostOps1]
  after_results_simp
  exact h1_agg_eq _ _ _ _
/-- The layer's bias as the [1,128] row the bias-and-relu region reads. -/
theorem h1_row : StableHlo.after hostOps1 W (Proc.devRef .tc main_v50) = Cert.Spec.rowOf (Cert.Spec.b0Of (W (Proc.devRef .tc main_arg4))) := by
  dsimp only [hostOps1]
  after_results_simp
  exact h1_row_eq _
/-- The stretch writes none of these buffers. -/
theorem h1_keep (b : Ref sig .tc) (hb : b ∈ [main_arg2, main_arg3, main_arg4, main_arg5, main_arg6, main_v3, main_v6, main_v31]) :
    StableHlo.after hostOps1 W (Proc.devRef .tc b) = W (Proc.devRef .tc b) := by
  simp only [List.mem_cons, List.not_mem_nil, or_false] at hb
  rcases hb with rfl | rfl | rfl | rfl | rfl | rfl | rfl | rfl <;>
    (dsimp only [hostOps1]; after_results_simp)
/-- The layer's weight matrix. -/
theorem h2_w : StableHlo.after hostOps2 W (Proc.devRef .tc main_v53) = Cert.Spec.w1Of (W (Proc.devRef .tc main_arg3)) := by
  dsimp only [hostOps2]
  after_results_simp
  exact h2_w_eq _
/-- The stretch writes none of these buffers. -/
theorem h2_keep (b : Ref sig .tc) (hb : b ∈ [main_arg2, main_arg3, main_arg4, main_arg5, main_arg6, main_v3, main_v6, main_v31, main_v51]) :
    StableHlo.after hostOps2 W (Proc.devRef .tc b) = W (Proc.devRef .tc b) := by
  simp only [List.mem_cons, List.not_mem_nil, or_false] at hb
  rcases hb with rfl | rfl | rfl | rfl | rfl | rfl | rfl | rfl | rfl <;>
    (dsimp only [hostOps2]; after_results_simp)

end Cert.KernelIdeal.Val

end
-- ==== Proof.KHost34.lean ====
import proofs.«403458_j76407468195987_1_alg».proof.Proof.Gen.KernelIdeal.Launch
import proofs.«403458_j76407468195987_1_alg».proof.Proof.Spec
import Idealize.ShloMosaic.Lib.StableHlo.Run

set_option maxRecDepth 16384

noncomputable section

open scoped BigOperators

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The stretch's chain for the neighbour sum — negative sources wrapped, the product's rows gathered at the sources,
    scaled by the messages' normalisation, added into the zero array at the targets — is the specification's
    neighbour sum of the same four arrays. -/
theorem h3_agg_eq (sv dv : Cert.Spec.Arr F S740000 .i32) (nv : Cert.Spec.Arr F S740000 .f32) (y : Cert.Spec.Arr F S100000x128 .f32) :
    Host.scatterAdd scatter_S100000x128_S740000x1_S740000x128_1_0_0_1
      (broadcastInDim S100000x128 ![] bcast_S_S100000x128 (constant S_ FTy.f32 0#32))
      (broadcastInDim S740000x1 ![0] bcast_S740000_S740000x1_0 dv)
      (mulf
        (Host.gather gather_S100000x128_S740000x1_S740000x128_1_0_n_n_0_1_1128 y
          (broadcastInDim S740000x1 ![0] bcast_S740000_S740000x1_0
            (select
              (cmpi CmpIPredicate.slt sv (broadcastInDim S740000 ![] bcast_S_S740000 (constantI S_ 32 0#32)))
              (addi sv (broadcastInDim S740000 ![] bcast_S_S740000 (constantI S_ 32 100000#32)))
              sv)))
        (broadcastInDim S740000x128 ![0, 1] bcast_S740000x1_S740000x128_0_1
          (broadcastInDim S740000x1 ![0] bcast_S740000_S740000x1_0 nv)))
      = Cert.Spec.agg sv dv nv y := rfl

/-- The neighbour sum of the layer's product, written by this stretch. -/
theorem h3_agg : StableHlo.after hostOps3 W (Proc.devRef .tc main_v67) = Cert.Spec.agg (W (Proc.devRef .tc main_v3)) (W (Proc.devRef .tc main_v6)) (W (Proc.devRef .tc main_v31)) (W (Proc.devRef .tc main_v54)) := by
  dsimp only [hostOps3]
  after_results_simp
  exact h3_agg_eq _ _ _ _
/-- The layer's bias as the [1,128] row the bias-and-relu region reads. -/
theorem h3_row : StableHlo.after hostOps3 W (Proc.devRef .tc main_v70) = Cert.Spec.rowOf (Cert.Spec.b1Of (W (Proc.devRef .tc main_arg4))) := by
  dsimp only [hostOps3]
  after_results_simp
  unfold Cert.Spec.rowOf Cert.Spec.b1Of
  rfl
/-- The stretch writes none of these buffers. -/
theorem h3_keep (b : Ref sig .tc) (hb : b ∈ [main_arg2, main_arg3, main_arg4, main_arg5, main_arg6, main_v3, main_v6, main_v31]) :
    StableHlo.after hostOps3 W (Proc.devRef .tc b) = W (Proc.devRef .tc b) := by
  simp only [List.mem_cons, List.not_mem_nil, or_false] at hb
  rcases hb with rfl | rfl | rfl | rfl | rfl | rfl | rfl | rfl <;>
    (dsimp only [hostOps3]; after_results_simp)
/-- The layer's weight matrix. -/
theorem h4_w : StableHlo.after hostOps4 W (Proc.devRef .tc main_v73) = Cert.Spec.w2Of (W (Proc.devRef .tc main_arg3)) := by
  dsimp only [hostOps4]
  after_results_simp
  unfold Cert.Spec.w2Of
  rfl
/-- The stretch writes none of these buffers. -/
theorem h4_keep (b : Ref sig .tc) (hb : b ∈ [main_arg2, main_arg3, main_arg4, main_arg5, main_arg6, main_v3, main_v6, main_v31, main_v71]) :
    StableHlo.after hostOps4 W (Proc.devRef .tc b) = W (Proc.devRef .tc b) := by
  simp only [List.mem_cons, List.not_mem_nil, or_false] at hb
  rcases hb with rfl | rfl | rfl | rfl | rfl | rfl | rfl | rfl | rfl <;>
    (dsimp only [hostOps4]; after_results_simp)

end Cert.KernelIdeal.Val

end
-- ==== Proof.KHost567.lean ====
import proofs.«403458_j76407468195987_1_alg».proof.Proof.Gen.KernelIdeal.Launch
import proofs.«403458_j76407468195987_1_alg».proof.Proof.Spec
import Idealize.ShloMosaic.Lib.StableHlo.Run

set_option maxRecDepth 16384

noncomputable section

open scoped BigOperators

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The neighbour sum as this program prints it, over arrays: the same operations on the same operands as the shared
    neighbour sum. -/
theorem h5_agg_eq (sv dv : Cert.Spec.Arr F S740000 .i32) (nv : Cert.Spec.Arr F S740000 .f32) (y : Cert.Spec.Arr F S100000x128 .f32) :
    Host.scatterAdd scatter_S100000x128_S740000x1_S740000x128_1_0_0_1 (broadcastInDim S100000x128 ![] bcast_S_S100000x128 (constant S_ FTy.f32 0#32)) (broadcastInDim S740000x1 ![0] bcast_S740000_S740000x1_0 dv) (mulf (Host.gather gather_S100000x128_S740000x1_S740000x128_1_0_n_n_0_1_1128 y (broadcastInDim S740000x1 ![0] bcast_S740000_S740000x1_0 (select (cmpi CmpIPredicate.slt sv (broadcastInDim S740000 ![] bcast_S_S740000 (constantI S_ 32 0#32))) (addi sv (broadcastInDim S740000 ![] bcast_S_S740000 (constantI S_ 32 100000#32))) sv))) (broadcastInDim S740000x128 ![0, 1] bcast_S740000x1_S740000x128_0_1 (broadcastInDim S740000x1 ![0] bcast_S740000_S740000x1_0 nv)))
      = Cert.Spec.agg sv dv nv y := rfl

/-- The one-hot matrix as this program prints it, over arrays: the same operations as the shared definition. -/
theorem h6_onehot_eq (batch : Cert.Spec.Arr F S100000 .i32) :
    uitofp (F := F) .bf16 (cmpi .eq (broadcastInDim S100000x128 ![0, 1] bcast_S100000x1_S100000x128_0_1 (broadcastInDim S100000x1 ![0] bcast_S100000_S100000x1_0 batch)) (broadcastInDim S100000x128 ![0, 1] bcast_S1x128_S100000x128_0_1 (broadcastInDim S1x128 ![1] bcast_S128_S1x128_1 (iotaInDim S128 32 0))))
      = Cert.Spec.onehotOf batch := rfl

/-- The neighbour sum of the layer's product, written by this stretch. -/
theorem h5_agg : StableHlo.after hostOps5 W (Proc.devRef .tc main_v87) = Cert.Spec.agg (W (Proc.devRef .tc main_v3)) (W (Proc.devRef .tc main_v6)) (W (Proc.devRef .tc main_v31)) (W (Proc.devRef .tc main_v74)) := by
  dsimp only [hostOps5]
  after_results_simp
  exact h5_agg_eq _ _ _ _
/-- The layer's bias as the [1,128] row the bias-and-relu region reads. -/
theorem h5_row : StableHlo.after hostOps5 W (Proc.devRef .tc main_v90) = Cert.Spec.rowOf (Cert.Spec.b2Of (W (Proc.devRef .tc main_arg4))) := by
  dsimp only [hostOps5]
  after_results_simp
  unfold Cert.Spec.rowOf Cert.Spec.b2Of
  rfl
/-- The stretch writes none of these buffers. -/
theorem h5_keep (b : Ref sig .tc) (hb : b ∈ [main_arg2, main_arg5, main_arg6]) :
    StableHlo.after hostOps5 W (Proc.devRef .tc b) = W (Proc.devRef .tc b) := by
  simp only [List.mem_cons, List.not_mem_nil, or_false] at hb
  rcases hb with rfl | rfl | rfl <;> (dsimp only [hostOps5]; after_results_simp)
/-- The one-hot matrix of `batch`. -/
theorem h6_onehot : StableHlo.after hostOps6 W (Proc.devRef .tc main_v98) = Cert.Spec.onehotOf (W (Proc.devRef .tc main_arg2)) := by
  dsimp only [hostOps6]
  after_results_simp
  exact h6_onehot_eq _
/-- The stretch writes none of these buffers. -/
theorem h6_keep (b : Ref sig .tc) (hb : b ∈ [main_arg5, main_arg6, main_v91]) :
    StableHlo.after hostOps6 W (Proc.devRef .tc b) = W (Proc.devRef .tc b) := by
  simp only [List.mem_cons, List.not_mem_nil, or_false] at hb
  rcases hb with rfl | rfl | rfl <;> (dsimp only [hostOps6]; after_results_simp)
/-- The head's bias as the [1,10] row the last region reads. -/
theorem h7_row10 : StableHlo.after hostOps7 W (Proc.devRef .tc main_v100) = Cert.Spec.row10Of (W (Proc.devRef .tc main_arg6)) := by
  dsimp only [hostOps7]
  after_results_simp
  rfl
/-- The stretch writes none of these buffers. -/
theorem h7_keep (b : Ref sig .tc) (hb : b ∈ [main_arg5, main_v99]) :
    StableHlo.after hostOps7 W (Proc.devRef .tc b) = W (Proc.devRef .tc b) := by
  simp only [List.mem_cons, List.not_mem_nil, or_false] at hb
  rcases hb with rfl | rfl <;> (dsimp only [hostOps7]; after_results_simp)

end Cert.KernelIdeal.Val

end
-- ==== Proof.KFold.lean ====
import proofs.«403458_j76407468195987_1_alg».proof.Proof.Gen.KernelIdeal.Frame
import proofs.«403458_j76407468195987_1_alg».proof.Proof.Spec
import proofs.«403458_j76407468195987_1_alg».proof.Proof.RegMm0
import proofs.«403458_j76407468195987_1_alg».proof.Proof.RegBr1
import proofs.«403458_j76407468195987_1_alg».proof.Proof.RegMm2
import proofs.«403458_j76407468195987_1_alg».proof.Proof.RegBr3
import proofs.«403458_j76407468195987_1_alg».proof.Proof.RegMm4
import proofs.«403458_j76407468195987_1_alg».proof.Proof.RegBr5
import proofs.«403458_j76407468195987_1_alg».proof.Proof.RegPool6
import proofs.«403458_j76407468195987_1_alg».proof.Proof.RegFin7
import proofs.«403458_j76407468195987_1_alg».proof.Proof.KHost0
import proofs.«403458_j76407468195987_1_alg».proof.Proof.KHost12
import proofs.«403458_j76407468195987_1_alg».proof.Proof.KHost34
import proofs.«403458_j76407468195987_1_alg».proof.Proof.KHost567
import Idealize.ShloMosaic.Lib.StableHlo.Run

/-!
# The kernel program's result, read back through its nineteen boundaries

Between the launch and the return the program alternates stretches of host operations with eight regions.
A host stretch writes a few buffers, each a function of buffers already there, and leaves the rest; a region
writes its one output array and leaves the rest. So every buffer that is read at some boundary can be walked
back to where it was written, and from there to the seven arguments:

  * the graph data (sources, targets, normalisation) are made once, before the first region, and read by the
    neighbour sum of each of the three layers;
  * layer `l` is a product region (`h W_l`), the neighbour sum on the host, and a bias-and-relu region;
  * the pool region multiplies by the one-hot matrix of `batch`, and the last region is the linear head.

Composed, the last region's output is `specK` of the seven arguments.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (mmSpec brSpec poolSpec finSpec)

variable (m : (ℓ : Loc nD τ sig) → Buf (Elt Ideal) ℓ) (ρ : Dev nD → PrngReg)

/-! ## The seven arguments, the graph data and the three layers, as functions of the launch memory -/

/-- The node features. -/
abbrev argX (c : Dev nD) : Cert.Spec.Arr Ideal S100000x128 .f32 := m ((c.tc : Thread nD τ).loc main_arg0)
/-- The edge list. -/
abbrev argE (c : Dev nD) : Cert.Spec.Arr Ideal S2x640000 .i32 := m ((c.tc : Thread nD τ).loc main_arg1)
/-- The graph of each node. -/
abbrev argBatch (c : Dev nD) : Cert.Spec.Arr Ideal S100000 .i32 := m ((c.tc : Thread nD τ).loc main_arg2)
/-- The three layers' weights, stacked. -/
abbrev argWs (c : Dev nD) : Cert.Spec.Arr Ideal S3x128x128 .f32 := m ((c.tc : Thread nD τ).loc main_arg3)
/-- The three layers' biases, stacked. -/
abbrev argBs (c : Dev nD) : Cert.Spec.Arr Ideal S3x128 .f32 := m ((c.tc : Thread nD τ).loc main_arg4)
/-- The head's weights. -/
abbrev argWm (c : Dev nD) : Cert.Spec.Arr Ideal S128x10 .f32 := m ((c.tc : Thread nD τ).loc main_arg5)
/-- The head's bias. -/
abbrev argBm (c : Dev nD) : Cert.Spec.Arr Ideal S10 .f32 := m ((c.tc : Thread nD τ).loc main_arg6)
/-- The message sources. -/
abbrev srcs (c : Dev nD) : Cert.Spec.Arr Ideal S740000 .i32 := Cert.Spec.srcOf (argE m c)
/-- The aggregation targets. -/
abbrev dsts (c : Dev nD) : Cert.Spec.Arr Ideal S740000 .i32 := Cert.Spec.dstOf (argE m c)
/-- The normalisation of every message. -/
abbrev nrms (c : Dev nD) : Cert.Spec.Arr Ideal S740000 .f32 := Cert.Spec.normOf (srcs m c) (dsts m c)
/-- The features after the first layer. -/
abbrev lay1 (c : Dev nD) : Cert.Spec.Arr Ideal S100000x128 .f32 :=
  Cert.Spec.layerK (srcs m c) (dsts m c) (nrms m c) (Cert.Spec.w0Of (argWs m c)) (Cert.Spec.b0Of (argBs m c)) (argX m c)
/-- The features after the second layer. -/
abbrev lay2 (c : Dev nD) : Cert.Spec.Arr Ideal S100000x128 .f32 :=
  Cert.Spec.layerK (srcs m c) (dsts m c) (nrms m c) (Cert.Spec.w1Of (argWs m c)) (Cert.Spec.b1Of (argBs m c)) (lay1 m c)
/-- The features after the third layer. -/
abbrev lay3 (c : Dev nD) : Cert.Spec.Arr Ideal S100000x128 .f32 :=
  Cert.Spec.layerK (srcs m c) (dsts m c) (nrms m c) (Cert.Spec.w2Of (argWs m c)) (Cert.Spec.b2Of (argBs m c)) (lay2 m c)

/-- The neighbour sum of equal operands. -/
theorem agg_congr {sv sv' dv dv' : Cert.Spec.Arr Ideal S740000 .i32} {nv nv' : Cert.Spec.Arr Ideal S740000 .f32}
    {y y' : Cert.Spec.Arr Ideal S100000x128 .f32} (h1 : sv = sv') (h2 : dv = dv') (h3 : nv = nv') (h4 : y = y') :
    Cert.Spec.agg sv dv nv y = Cert.Spec.agg sv' dv' nv' y' := by rw [h1, h2, h3, h4]
/-- The head of equal operands. -/
theorem fin_congr {p p' : Cert.Spec.Arr Ideal S128x128 .f32} {wm wm' : Cert.Spec.Arr Ideal S128x10 .f32}
    {b b' : Cert.Spec.Arr Ideal S1x10 .f32} (h1 : p = p') (h2 : wm = wm') (h3 : b = b') :
    finSpec p wm b = finSpec p' wm' b' := by rw [h1, h2, h3]

/-! ## What survives a host stretch and the region after it

Neither writes the arguments still to be read, nor the graph data while a layer is still to come. -/

/-- Across the three opening stretches and the first product region. -/
theorem keep4 (c : Dev nD) (b : Ref sig .tc) (hb : b ∈ [main_arg2, main_arg3, main_arg4, main_arg5, main_arg6]) :
    W4 m ρ c (Proc.devRef .tc b) = W0 m ρ c (Proc.devRef .tc b) := by
  simp only [List.mem_cons, List.not_mem_nil, or_false] at hb
  rcases hb with rfl | rfl | rfl | rfl | rfl <;>
    exact (W4_of_ne m ρ c _ (by decide)).trans (pre_keep (W0 m ρ c) _ (by decide))
/-- Across the first neighbour sum and the first bias-and-relu region. -/
theorem keep6 (c : Dev nD) (b : Ref sig .tc) (hb : b ∈ [main_arg2, main_arg3, main_arg4, main_arg5, main_arg6, main_v3, main_v6, main_v31]) :
    W6 m ρ c (Proc.devRef .tc b) = W4 m ρ c (Proc.devRef .tc b) := by
  simp only [List.mem_cons, List.not_mem_nil, or_false] at hb
  rcases hb with rfl | rfl | rfl | rfl | rfl | rfl | rfl | rfl <;>
    exact (W6_of_ne m ρ c _ (by decide)).trans (h1_keep (W4 m ρ c) _ (by decide))
/-- Across the second weight's slice and the second product region. -/
theorem keep8 (c : Dev nD) (b : Ref sig .tc) (hb : b ∈ [main_arg2, main_arg3, main_arg4, main_arg5, main_arg6, main_v3, main_v6, main_v31]) :
    W8 m ρ c (Proc.devRef .tc b) = W6 m ρ c (Proc.devRef .tc b) := by
  simp only [List.mem_cons, List.not_mem_nil, or_false] at hb
  rcases hb with rfl | rfl | rfl | rfl | rfl | rfl | rfl | rfl <;>
    exact (W8_of_ne m ρ c _ (by decide)).trans (h2_keep (W6 m ρ c) _ (by decide))
/-- Across the second neighbour sum and the second bias-and-relu region. -/
theorem keep10 (c : Dev nD) (b : Ref sig .tc) (hb : b ∈ [main_arg2, main_arg3, main_arg4, main_arg5, main_arg6, main_v3, main_v6, main_v31]) :
    W10 m ρ c (Proc.devRef .tc b) = W8 m ρ c (Proc.devRef .tc b) := by
  simp only [List.mem_cons, List.not_mem_nil, or_false] at hb
  rcases hb with rfl | rfl | rfl | rfl | rfl | rfl | rfl | rfl <;>
    exact (W10_of_ne m ρ c _ (by decide)).trans (h3_keep (W8 m ρ c) _ (by decide))
/-- Across the third weight's slice and the third product region. -/
theorem keep12 (c : Dev nD) (b : Ref sig .tc) (hb : b ∈ [main_arg2, main_arg3, main_arg4, main_arg5, main_arg6, main_v3, main_v6, main_v31]) :
    W12 m ρ c (Proc.devRef .tc b) = W10 m ρ c (Proc.devRef .tc b) := by
  simp only [List.mem_cons, List.not_mem_nil, or_false] at hb
  rcases hb with rfl | rfl | rfl | rfl | rfl | rfl | rfl | rfl <;>
    exact (W12_of_ne m ρ c _ (by decide)).trans (h4_keep (W10 m ρ c) _ (by decide))
/-- Across the third neighbour sum and the third bias-and-relu region. -/
theorem keep14 (c : Dev nD) (b : Ref sig .tc) (hb : b ∈ [main_arg2, main_arg5, main_arg6]) :
    W14 m ρ c (Proc.devRef .tc b) = W12 m ρ c (Proc.devRef .tc b) := by
  simp only [List.mem_cons, List.not_mem_nil, or_false] at hb
  rcases hb with rfl | rfl | rfl <;>
    exact (W14_of_ne m ρ c _ (by decide)).trans (h5_keep (W12 m ρ c) _ (by decide))
/-- Across the one-hot matrix's stretch and the pool region. -/
theorem keep16 (c : Dev nD) (b : Ref sig .tc) (hb : b ∈ [main_arg5, main_arg6]) :
    W16 m ρ c (Proc.devRef .tc b) = W14 m ρ c (Proc.devRef .tc b) := by
  simp only [List.mem_cons, List.not_mem_nil, or_false] at hb
  rcases hb with rfl | rfl <;>
    exact (W16_of_ne m ρ c _ (by decide)).trans (h6_keep (W14 m ρ c) _ (by decide))

/-! ## The arguments where a later stretch or region reads them -/

theorem W4_arg4 (c : Dev nD) : W4 m ρ c (Proc.devRef .tc main_arg4) = argBs m c :=
  keep4 m ρ c main_arg4 (by decide)
theorem W8_arg4 (c : Dev nD) : W8 m ρ c (Proc.devRef .tc main_arg4) = argBs m c :=
  (keep8 m ρ c main_arg4 (by decide)).trans <| (keep6 m ρ c main_arg4 (by decide)).trans <| W4_arg4 m ρ c
theorem W12_arg4 (c : Dev nD) : W12 m ρ c (Proc.devRef .tc main_arg4) = argBs m c :=
  (keep12 m ρ c main_arg4 (by decide)).trans <| (keep10 m ρ c main_arg4 (by decide)).trans <| W8_arg4 m ρ c
theorem W6_arg3 (c : Dev nD) : W6 m ρ c (Proc.devRef .tc main_arg3) = argWs m c :=
  (keep6 m ρ c main_arg3 (by decide)).trans <| keep4 m ρ c main_arg3 (by decide)
theorem W10_arg3 (c : Dev nD) : W10 m ρ c (Proc.devRef .tc main_arg3) = argWs m c :=
  (keep10 m ρ c main_arg3 (by decide)).trans <| (keep8 m ρ c main_arg3 (by decide)).trans <| W6_arg3 m ρ c
theorem W14_arg2 (c : Dev nD) : W14 m ρ c (Proc.devRef .tc main_arg2) = argBatch m c :=
  (keep14 m ρ c main_arg2 (by decide)).trans <| (keep12 m ρ c main_arg2 (by decide)).trans <| (keep10 m ρ c main_arg2 (by decide)).trans <| (keep8 m ρ c main_arg2 (by decide)).trans <| (keep6 m ρ c main_arg2 (by decide)).trans <| keep4 m ρ c main_arg2 (by decide)
theorem W16_arg6 (c : Dev nD) : W16 m ρ c (Proc.devRef .tc main_arg6) = argBm m c :=
  (keep16 m ρ c main_arg6 (by decide)).trans <| (keep14 m ρ c main_arg6 (by decide)).trans <| (keep12 m ρ c main_arg6 (by decide)).trans <| (keep10 m ρ c main_arg6 (by decide)).trans <| (keep8 m ρ c main_arg6 (by decide)).trans <| (keep6 m ρ c main_arg6 (by decide)).trans <| keep4 m ρ c main_arg6 (by decide)
theorem W17_arg5 (c : Dev nD) : W17 m ρ c (Proc.devRef .tc main_arg5) = argWm m c :=
  (h7_keep (W16 m ρ c) main_arg5 (by decide)).trans <| (keep16 m ρ c main_arg5 (by decide)).trans <| (keep14 m ρ c main_arg5 (by decide)).trans <| (keep12 m ρ c main_arg5 (by decide)).trans <| (keep10 m ρ c main_arg5 (by decide)).trans <| (keep8 m ρ c main_arg5 (by decide)).trans <| (keep6 m ρ c main_arg5 (by decide)).trans <| keep4 m ρ c main_arg5 (by decide)

/-! ## The graph data where each layer's neighbour sum reads them -/

theorem W4_v3 (c : Dev nD) : W4 m ρ c (Proc.devRef .tc main_v3) = srcs m c :=
  (W4_of_ne m ρ c main_v3 (by decide)).trans <| pre_src (W0 m ρ c)
theorem W8_v3 (c : Dev nD) : W8 m ρ c (Proc.devRef .tc main_v3) = srcs m c :=
  (keep8 m ρ c main_v3 (by decide)).trans <| (keep6 m ρ c main_v3 (by decide)).trans <| W4_v3 m ρ c
theorem W12_v3 (c : Dev nD) : W12 m ρ c (Proc.devRef .tc main_v3) = srcs m c :=
  (keep12 m ρ c main_v3 (by decide)).trans <| (keep10 m ρ c main_v3 (by decide)).trans <| W8_v3 m ρ c
theorem W4_v6 (c : Dev nD) : W4 m ρ c (Proc.devRef .tc main_v6) = dsts m c :=
  (W4_of_ne m ρ c main_v6 (by decide)).trans <| pre_dst (W0 m ρ c)
theorem W8_v6 (c : Dev nD) : W8 m ρ c (Proc.devRef .tc main_v6) = dsts m c :=
  (keep8 m ρ c main_v6 (by decide)).trans <| (keep6 m ρ c main_v6 (by decide)).trans <| W4_v6 m ρ c
theorem W12_v6 (c : Dev nD) : W12 m ρ c (Proc.devRef .tc main_v6) = dsts m c :=
  (keep12 m ρ c main_v6 (by decide)).trans <| (keep10 m ρ c main_v6 (by decide)).trans <| W8_v6 m ρ c
theorem W4_v31 (c : Dev nD) : W4 m ρ c (Proc.devRef .tc main_v31) = nrms m c :=
  (W4_of_ne m ρ c main_v31 (by decide)).trans <| pre_nrm (W0 m ρ c)
theorem W8_v31 (c : Dev nD) : W8 m ρ c (Proc.devRef .tc main_v31) = nrms m c :=
  (keep8 m ρ c main_v31 (by decide)).trans <| (keep6 m ρ c main_v31 (by decide)).trans <| W4_v31 m ρ c
theorem W12_v31 (c : Dev nD) : W12 m ρ c (Proc.devRef .tc main_v31) = nrms m c :=
  (keep12 m ρ c main_v31 (by decide)).trans <| (keep10 m ρ c main_v31 (by decide)).trans <| W8_v31 m ρ c

/-! ## The first layer -/

/-- The product region's rows: the node features. -/
theorem W3_arg0 (c : Dev nD) : W3 m ρ c (Proc.devRef .tc main_arg0) = argX m c :=
  pre_keep (W0 m ρ c) main_arg0 (by decide)
/-- The product region's matrix. -/
theorem W3_v33 (c : Dev nD) : W3 m ρ c (Proc.devRef .tc main_v33) = Cert.Spec.w0Of (argWs m c) :=
  pre_w0 (W0 m ρ c)
/-- The product region's output: the rows times the layer's matrix. -/
theorem W4_v34 (c : Dev nD) : W4 m ρ c (Proc.devRef .tc main_v34) = mmSpec (argX m c) (Cert.Spec.w0Of (argWs m c)) :=
  (W4_arr m ρ c 2).trans <| (mm0_final (V3 m ρ) c).trans <| congrArg₂ mmSpec (W3_arg0 m ρ c) (W3_v33 m ρ c)
/-- The neighbour sum of the product. -/
theorem W5_v47 (c : Dev nD) : W5 m ρ c (Proc.devRef .tc main_v47) = Cert.Spec.agg (srcs m c) (dsts m c) (nrms m c) (mmSpec (argX m c) (Cert.Spec.w0Of (argWs m c))) :=
  (h1_agg (W4 m ρ c)).trans <| agg_congr (W4_v3 m ρ c) (W4_v6 m ρ c) (W4_v31 m ρ c) (W4_v34 m ρ c)
/-- The layer's bias as a row. -/
theorem W5_v50 (c : Dev nD) : W5 m ρ c (Proc.devRef .tc main_v50) = Cert.Spec.rowOf (Cert.Spec.b0Of (argBs m c)) :=
  (h1_row (W4 m ρ c)).trans <| congrArg (fun a => Cert.Spec.rowOf (Cert.Spec.b0Of a)) (W4_arg4 m ρ c)
/-- The bias-and-relu region's output: the layer. -/
theorem W6_v51 (c : Dev nD) : W6 m ρ c (Proc.devRef .tc main_v51) = lay1 m c :=
  (W6_arr m ρ c 2).trans <| (br1_final (V5 m ρ) c).trans <| congrArg₂ brSpec (W5_v47 m ρ c) (W5_v50 m ρ c)

/-! ## The second layer -/

/-- The product region's rows: the first layer. -/
theorem W7_v51 (c : Dev nD) : W7 m ρ c (Proc.devRef .tc main_v51) = lay1 m c :=
  (h2_keep (W6 m ρ c) main_v51 (by decide)).trans <| W6_v51 m ρ c
/-- The product region's matrix. -/
theorem W7_v53 (c : Dev nD) : W7 m ρ c (Proc.devRef .tc main_v53) = Cert.Spec.w1Of (argWs m c) :=
  (h2_w (W6 m ρ c)).trans <| congrArg Cert.Spec.w1Of (W6_arg3 m ρ c)
/-- The product region's output: the rows times the layer's matrix. -/
theorem W8_v54 (c : Dev nD) : W8 m ρ c (Proc.devRef .tc main_v54) = mmSpec (lay1 m c) (Cert.Spec.w1Of (argWs m c)) :=
  (W8_arr m ρ c 2).trans <| (mm2_final (V7 m ρ) c).trans <| congrArg₂ mmSpec (W7_v51 m ρ c) (W7_v53 m ρ c)
/-- The neighbour sum of the product. -/
theorem W9_v67 (c : Dev nD) : W9 m ρ c (Proc.devRef .tc main_v67) = Cert.Spec.agg (srcs m c) (dsts m c) (nrms m c) (mmSpec (lay1 m c) (Cert.Spec.w1Of (argWs m c))) :=
  (h3_agg (W8 m ρ c)).trans <| agg_congr (W8_v3 m ρ c) (W8_v6 m ρ c) (W8_v31 m ρ c) (W8_v54 m ρ c)
/-- The layer's bias as a row. -/
theorem W9_v70 (c : Dev nD) : W9 m ρ c (Proc.devRef .tc main_v70) = Cert.Spec.rowOf (Cert.Spec.b1Of (argBs m c)) :=
  (h3_row (W8 m ρ c)).trans <| congrArg (fun a => Cert.Spec.rowOf (Cert.Spec.b1Of a)) (W8_arg4 m ρ c)
/-- The bias-and-relu region's output: the layer. -/
theorem W10_v71 (c : Dev nD) : W10 m ρ c (Proc.devRef .tc main_v71) = lay2 m c :=
  (W10_arr m ρ c 2).trans <| (br3_final (V9 m ρ) c).trans <| congrArg₂ brSpec (W9_v67 m ρ c) (W9_v70 m ρ c)

/-! ## The third layer -/

/-- The product region's rows: the second layer. -/
theorem W11_v71 (c : Dev nD) : W11 m ρ c (Proc.devRef .tc main_v71) = lay2 m c :=
  (h4_keep (W10 m ρ c) main_v71 (by decide)).trans <| W10_v71 m ρ c
/-- The product region's matrix. -/
theorem W11_v73 (c : Dev nD) : W11 m ρ c (Proc.devRef .tc main_v73) = Cert.Spec.w2Of (argWs m c) :=
  (h4_w (W10 m ρ c)).trans <| congrArg Cert.Spec.w2Of (W10_arg3 m ρ c)
/-- The product region's output: the rows times the layer's matrix. -/
theorem W12_v74 (c : Dev nD) : W12 m ρ c (Proc.devRef .tc main_v74) = mmSpec (lay2 m c) (Cert.Spec.w2Of (argWs m c)) :=
  (W12_arr m ρ c 2).trans <| (mm4_final (V11 m ρ) c).trans <| congrArg₂ mmSpec (W11_v71 m ρ c) (W11_v73 m ρ c)
/-- The neighbour sum of the product. -/
theorem W13_v87 (c : Dev nD) : W13 m ρ c (Proc.devRef .tc main_v87) = Cert.Spec.agg (srcs m c) (dsts m c) (nrms m c) (mmSpec (lay2 m c) (Cert.Spec.w2Of (argWs m c))) :=
  (h5_agg (W12 m ρ c)).trans <| agg_congr (W12_v3 m ρ c) (W12_v6 m ρ c) (W12_v31 m ρ c) (W12_v74 m ρ c)
/-- The layer's bias as a row. -/
theorem W13_v90 (c : Dev nD) : W13 m ρ c (Proc.devRef .tc main_v90) = Cert.Spec.rowOf (Cert.Spec.b2Of (argBs m c)) :=
  (h5_row (W12 m ρ c)).trans <| congrArg (fun a => Cert.Spec.rowOf (Cert.Spec.b2Of a)) (W12_arg4 m ρ c)
/-- The bias-and-relu region's output: the layer. -/
theorem W14_v91 (c : Dev nD) : W14 m ρ c (Proc.devRef .tc main_v91) = lay3 m c :=
  (W14_arr m ρ c 2).trans <| (br5_final (V13 m ρ) c).trans <| congrArg₂ brSpec (W13_v87 m ρ c) (W13_v90 m ρ c)

/-! ## The pool and the head -/

/-- The pool region's features: the third layer. -/
theorem W15_v91 (c : Dev nD) : W15 m ρ c (Proc.devRef .tc main_v91) = lay3 m c :=
  (h6_keep (W14 m ρ c) main_v91 (by decide)).trans <| W14_v91 m ρ c
/-- The one-hot matrix of `batch`. -/
theorem W15_v98 (c : Dev nD) : W15 m ρ c (Proc.devRef .tc main_v98) = Cert.Spec.onehotOf (argBatch m c) :=
  (h6_onehot (W14 m ρ c)).trans <| congrArg Cert.Spec.onehotOf (W14_arg2 m ρ c)
/-- The pool region's output. -/
theorem W16_v99 (c : Dev nD) : W16 m ρ c (Proc.devRef .tc main_v99) = poolSpec (lay3 m c) (Cert.Spec.onehotOf (argBatch m c)) :=
  (W16_arr m ρ c 2).trans <| (pool6_final (V15 m ρ) c).trans <| congrArg₂ poolSpec (W15_v91 m ρ c) (W15_v98 m ρ c)
/-- The head reads the pooled features. -/
theorem W17_v99 (c : Dev nD) : W17 m ρ c (Proc.devRef .tc main_v99) = poolSpec (lay3 m c) (Cert.Spec.onehotOf (argBatch m c)) :=
  (h7_keep (W16 m ρ c) main_v99 (by decide)).trans <| W16_v99 m ρ c
/-- The head's bias as a row. -/
theorem W17_v100 (c : Dev nD) : W17 m ρ c (Proc.devRef .tc main_v100) = Cert.Spec.row10Of (argBm m c) :=
  (h7_row10 (W16 m ρ c)).trans <| congrArg Cert.Spec.row10Of (W16_arg6 m ρ c)
/-- The last region's output: the head of the pooled third layer. -/
theorem W18_v101 (c : Dev nD) : W18 m ρ c (Proc.devRef .tc main_v101) = finSpec (poolSpec (lay3 m c) (Cert.Spec.onehotOf (argBatch m c))) (argWm m c) (Cert.Spec.row10Of (argBm m c)) :=
  (W18_arr m ρ c 3).trans <| (fin7_final (V17 m ρ) c).trans <| fin_congr (W17_v99 m ρ c) (W17_arg5 m ρ c) (W17_v100 m ρ c)

/-- The last boundary's contents at the result buffer: the eight regions' arrays and the host stretches between them,
    read back to the launch memory, are `specK` of the seven arguments. -/
theorem kernel_value (c : Dev nD) :
    W18 (F := Ideal) m ρ c (Proc.devRef .tc main_v101)
      = Cert.Spec.specK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W18_v101 m ρ c).trans rfl

end Cert.KernelIdeal.Val

end
-- ==== Proof.RefValue.lean ====
import proofs.«403458_j76407468195987_1_alg».proof.Proof.RefRun
import proofs.«403458_j76407468195987_1_alg».proof.Proof.Spec

set_option maxRecDepth 16384

noncomputable section

open scoped BigOperators

namespace Cert.ReferenceIdeal.RefValue

open Idealize.ShloMosaic Idealize.ShloMosaic.TcCoe Idealize.SL.Sem
open Cert.ReferenceIdeal Cert.ReferenceIdeal.Facts₀

variable {F : FTy → Type} [FloatOps F]

/-- The reference run's composed term is `specH` of the seven arguments: the same operations, with the index lists,
    the normalisation, the neighbour sum and the layers named. -/
theorem res_eq (m : (ℓ : Loc nD τ sig) → Buf (Elt F) ℓ) (c : Dev nD) :
    Cert.ReferenceIdeal.ValueP.res_main_v104 m c
      = Cert.Spec.specH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v104 Cert.Spec.specH Cert.Spec.headH Cert.Spec.poolH Cert.Spec.layerH Cert.Spec.agg Cert.Spec.normOf Cert.Spec.dinvOf Cert.Spec.wrapIdx Cert.Spec.srcOf Cert.Spec.dstOf Cert.Spec.w0Of Cert.Spec.w1Of Cert.Spec.w2Of Cert.Spec.b0Of Cert.Spec.b1Of Cert.Spec.b2Of
  rfl

end Cert.ReferenceIdeal.RefValue

end
-- ==== Proof.EqMm.lean ====
import proofs.«403458_j76407468195987_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Spec

open Idealize.ShloMosaic Idealize.ShloMosaic.ValueIdx
open Cert.ReferenceIdeal Cert.ReferenceIdeal.Facts₀

/-! ## The operand indices of the product of a [100000,128] array with a [128,128] matrix

The dimension numbers contract the left operand's axis 1 with the right operand's axis 0 and have no batch axis: at
the output index (r, c) and the contraction index k the left operand is read at (r, k) and the right at (k, c).
One lemma per operand axis, each stated at the literal axis. -/

/-- The left operand's row is the output's row. -/
theorem mm_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

/-- The left operand's column is the contraction index. -/
theorem mm_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

/-- The right operand's row is the contraction index. -/
theorem mm_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

/-- The right operand's column is the output's column. -/
theorem mm_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A row of the product is the sum over the contracted axis: the host's `dot_general` at an index. -/
theorem mm_eq (x : Arr Ideal S100000x128 .f32) (w : Arr Ideal S128x128 .f32) :
    mmSpec x w = Host.dotGeneral (F := Ideal) (φ₁ := .f32) (φ₂ := .f32) dot_S100000x128_S128x128_S100000x128_1_0_0_1_n_n none x w := by
  funext i
  show ∑ k : Fin 128, x (ix2 (i 0) k) * w (ix2 k (i 1)) = _
  simp only [Host.dotGeneral]
  -- the host's product at an index is the sum over the contraction's index set, which has one axis of extent 128
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (i 0) k := funext fun a => Fin.ext (by
    match a with
    | ⟨0, _⟩ => exact mm_lhs_0 _ _
    | ⟨1, _⟩ => exact (mm_lhs_1 _ _).trans hk)
  have er : dot_S100000x128_S128x128_S100000x128_1_0_0_1_n_n.rhsIdx i ((contrEquiv1 dot_S100000x128_S128x128_S100000x128_1_0_0_1_n_n 128 rfl rfl).symm k) = ix2 k (i 1) := funext fun a => Fin.ext (by
    match a with
    | ⟨0, _⟩ => exact (mm_rhs_0 _ _).trans hk
    | ⟨1, _⟩ => exact mm_rhs_1 _ _)
  rw [el, er]
  rfl

end Cert.Spec

end
-- ==== Proof.EqBr.lean ====
import proofs.«403458_j76407468195987_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Spec

open Idealize.ShloMosaic Idealize.ShloMosaic.ValueIdx
open Cert.ReferenceIdeal Cert.ReferenceIdeal.Facts₀

/-! ## The bias as the two programs carry it

The kernel's program reshapes the bias vector to a [1,128] row; the reference broadcasts it to a [1,128] row and that
row over the 100000 nodes. Both read, at column j, the vector's entry j. -/

/-- The [1,128] row the kernel's program makes of a bias vector reads, at column j, the vector's entry j: the reshape
    keeps the row-major position, and row 0's position j is j. -/
theorem rowOf_apply {F : FTy → Type} [FloatOps F] (b : Arr F S128 .f32) (j : Fin 128) :
    rowOf b (ix2 (0 : Fin 1) j) = b (ix1 j) := by
  unfold rowOf
  exact shapeCast_apply b Cert.KernelIdeal.Facts₀.shapeCasts_S128_S1x128 (ix2 (0 : Fin 1) j) (ix1 j) (by
    rw [Shape.rowMajor_val_one, Shape.rowMajor_val_two]; show j.val = 0 * 128 + j.val; omega)

/-- The reference's bias, a vector broadcast to a [1,128] row and then over the rows, reads at (n, j) the vector's
    entry j. -/
theorem biasOver_apply {F : FTy → Type} [FloatOps F] (b : Arr F S128 .f32) (i : S100000x128.Idx) :
    broadcastInDim S100000x128 ![0, 1] bcast_S1x128_S100000x128_0_1 (broadcastInDim S1x128 ![1] bcast_S128_S1x128_1 b) i
      = b (ix1 (i 1)) := by
  refine (broadcastInDim_apply _ bcast_S1x128_S100000x128_0_1 (broadcastInDim S1x128 ![1] bcast_S128_S1x128_1 b) i
    (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])

/-- The reference's relu threshold, the zero word broadcast over the array, is the real 0 at every index. -/
theorem zeroOver_apply (i : S100000x128.Idx) :
    broadcastInDim S100000x128 ![] bcast_S_S100000x128 (constant (F := Ideal) S_ .f32 0x00000000#32) i = (0 : EReal) := by
  refine (broadcastInDim_apply _ bcast_S_S100000x128 (constant (F := Ideal) S_ .f32 0x00000000#32) i ix0 (fun a => a.elim0)).trans ?_
  rw [constant_apply]
  exact Ideal.ofBits_zero_f32

/-- The [1,128] row read at column `j` is the bias vector's entry `j`, as is its broadcast over the rows; `max · 0` is relu. -/
theorem br_eq (a : Arr Ideal S100000x128 .f32) (b : Arr Ideal S128 .f32) :
    brSpec a (rowOf b) = maximumf (F := Ideal) (addf a (broadcastInDim S100000x128 ![0, 1] bcast_S1x128_S100000x128_0_1 (broadcastInDim S1x128 ![1] bcast_S128_S1x128_1 b))) (broadcastInDim S100000x128 ![] bcast_S_S100000x128 (constant S_ .f32 0x00000000#32)) := by
  funext i
  obtain ⟨p, q, rfl⟩ : ∃ (p : Fin 100000) (q : Fin 128), i = ix2 p q := ⟨i 0, i 1, eq_ix2 i⟩
  rw [maximumf_apply, addf_apply, biasOver_apply, zeroOver_apply]
  show max (a (ix2 p q) + rowOf b (ix2 (0 : Fin 1) q)) 0 = max (a (ix2 p q) + b (ix1 q)) 0
  rw [rowOf_apply]

end Cert.Spec

end
-- ==== Proof.EqPool.lean ====
import proofs.«403458_j76407468195987_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Spec

open Idealize.ShloMosaic Idealize.ShloMosaic.ValueIdx
open Cert.ReferenceIdeal Cert.ReferenceIdeal.Facts₀

/-! ## Where the scatter puts an update

The pool's scatter has one scatter index per node (the index array is `[100000, 1]`), one window axis (the feature axis)
and one inserted axis (the graph axis): update `(n, f)` goes to row `idx (n, 0)`, read signed, column `f`, and is
dropped when that row is outside `[0, 128)`. -/

/-- The pool's scatter dimension numbers. -/
abbrev dP : ScatterDims S128x128 S100000x1 S100000x128 := scatter_S128x128_S100000x1_S100000x128_1_0_0_1

/-- The graph axis is inserted: it has no window coordinate. -/
theorem dP_window0 (j : S100000x128.Idx) : dP.window j 0 = 0 := by
  unfold ScatterDims.window
  rw [dif_neg (by decide)]

/-- The feature axis is the window axis: its window coordinate is the update's column. -/
theorem dP_window1 (j : S100000x128.Idx) : dP.window j 1 = (j 1).val := by
  unfold ScatterDims.window
  rw [dif_pos (by decide)]
  rfl

/-- No scatter index names the feature axis: the window starts at column 0. -/
theorem dP_start1 (j : S100000x128.Idx) (idx : IVec S100000x1 32) : dP.start j idx 1 = 0 := by
  unfold ScatterDims.start
  rw [dif_neg (by decide)]

/-- On the graph axis the window of update `j` starts at the scatter index of `j`'s node, read signed. -/
theorem dP_start0 (j : S100000x128.Idx) (idx : IVec S100000x1 32) : dP.start j idx 0 = (idx (ix2 (j 0) 0)).toInt := by
  unfold ScatterDims.start
  rw [dif_pos (by decide)]
  congr 2
  funext b
  match b with
  | ⟨0, _⟩ => rfl
  | ⟨1, _⟩ => rfl

/-- Update `j` lands on `(g, f)` exactly when its node's scatter index, read signed, is `g` and its column is `f`
    (a scatter index outside `[0, 128)` lands nowhere). -/
theorem dP_resultIdx_iff (j : S100000x128.Idx) (idx : IVec S100000x1 32) (g f : Fin 128) :
    dP.resultIdx? j idx = some (ix2 g f) ↔ (idx (ix2 (j 0) 0)).toInt = (g.val : Int) ∧ j 1 = f := by
  have hs0 := dP_start0 j idx
  have hs1 := dP_start1 j idx
  have hw0 := dP_window0 j
  have hw1 := dP_window1 j
  have hj1 : (j 1).val < 128 := (j 1).isLt
  have hg : g.val < 128 := g.isLt
  have e0 : (ix2 g f : S128x128.Idx) 0 = g := rfl
  have e1 : (ix2 g f : S128x128.Idx) 1 = f := rfl
  unfold ScatterDims.resultIdx?
  by_cases hc : ∀ a, 0 ≤ dP.start j idx a + dP.window j a ∧ dP.start j idx a + dP.window j a < S128x128.size a
  · rw [dif_pos hc, Option.some.injEq]
    have c0 := hc 0
    rw [hs0, hw0] at c0
    constructor
    · intro h
      have h0 := congrArg Fin.val (congrFun h 0)
      have h1 := congrArg Fin.val (congrFun h 1)
      rw [e0] at h0
      rw [e1] at h1
      simp only [hs0, hs1, hw0, hw1] at h0 h1
      refine ⟨?_, Fin.ext ?_⟩
      · omega
      · omega
    · rintro ⟨ht, hf⟩
      funext a
      match a with
      | ⟨0, _⟩ =>
        refine Fin.ext ?_
        show (dP.start j idx 0 + dP.window j 0).toNat = g.val
        rw [hs0, hw0, ht]; simp
      | ⟨1, _⟩ =>
        refine Fin.ext ?_
        show (dP.start j idx 1 + dP.window j 1).toNat = f.val
        rw [hs1, hw1, ← hf]; simp
  · rw [dif_neg hc]
    constructor
    · intro h; cases h
    · rintro ⟨ht, hf⟩
      exfalso
      apply hc
      intro a
      match a with
      | ⟨0, _⟩ =>
        show 0 ≤ dP.start j idx 0 + dP.window j 0 ∧ dP.start j idx 0 + dP.window j 0 < (128 : Nat)
        rw [hs0, hw0, ht]; omega
      | ⟨1, _⟩ =>
        show 0 ≤ dP.start j idx 1 + dP.window j 1 ∧ dP.start j idx 1 + dP.window j 1 < (128 : Nat)
        rw [hs1, hw1]; omega

/-- The same, with the update index given by its coordinates. -/
theorem dP_resultIdx_ix2_iff (n : Fin 100000) (b : Fin 128) (idx : IVec S100000x1 32) (g f : Fin 128) :
    dP.resultIdx? (ix2 n b) idx = some (ix2 g f) ↔ (idx (ix2 n 0)).toInt = (g.val : Int) ∧ b = f :=
  dP_resultIdx_iff (ix2 n b) idx g f

/-- A 32-bit word is the word of a number below 128 exactly when its signed reading is that number. -/
theorem word_eq_ofNat_iff (w : BitVec 32) (g : Nat) (hg : g < 128) : w = BitVec.ofNat 32 g ↔ w.toInt = (g : Int) := by
  have key : (BitVec.ofNat 32 g).toInt = (g : Int) := by
    have hm : g % 2 ^ 32 = g := Nat.mod_eq_of_lt (by omega)
    rw [BitVec.toInt_eq_toNat_of_lt (by rw [BitVec.toNat_ofNat, hm]; omega), BitVec.toNat_ofNat, hm]
  constructor
  · rintro rfl; exact key
  · intro h; exact BitVec.eq_of_toInt_eq (h.trans key.symm)

/-! ## The one-hot matrix at an index -/

/-- The `[100000, 1]` index array at `(n, 0)` is `batch n`. -/
theorem idx_apply (batch : Arr Ideal S100000 .i32) (n : Fin 100000) :
    broadcastInDim S100000x1 ![0] bcast_S100000_S100000x1_0 batch (ix2 n 0) = batch (ix1 n) :=
  broadcastInDim_apply _ _ _ _ (ix1 n) (fun a => match a with | ⟨0, _⟩ => rfl)

/-- Entry `(n, g)` of the one-hot matrix is 1 when `batch n` is the word of `g`, else 0. -/
theorem onehot_apply (batch : Arr Ideal S100000 .i32) (n : Fin 100000) (g : Fin 128) :
    onehotOf (F := Ideal) batch (ix2 n g) = if batch (ix1 n) = BitVec.ofNat 32 g.val then (1 : EReal) else 0 := by
  have hA : broadcastInDim S100000x128 ![0, 1] Cert.KernelIdeal.Facts₀.bcast_S100000x1_S100000x128_0_1
      (broadcastInDim S100000x1 ![0] bcast_S100000_S100000x1_0 batch) (ix2 n g) = batch (ix1 n) := by
    rw [broadcastInDim_apply _ _ _ _ (ix2 n 0) (fun a => match a with | ⟨0, _⟩ => rfl | ⟨1, _⟩ => rfl)]
    exact idx_apply batch n
  have hB : broadcastInDim S100000x128 ![0, 1] bcast_S1x128_S100000x128_0_1
      (broadcastInDim S1x128 ![1] bcast_S128_S1x128_1 (iotaInDim S128 32 0)) (ix2 n g) = BitVec.ofNat 32 g.val := by
    rw [broadcastInDim_apply _ _ _ _ (ix2 0 g) (fun a => match a with | ⟨0, _⟩ => rfl | ⟨1, _⟩ => rfl),
      broadcastInDim_apply _ _ _ _ (ix1 g) (fun a => match a with | ⟨0, _⟩ => rfl)]
    rfl
  show FloatOps.uitofp (F := Ideal) .bf16 (IntOp.cmpi .eq
      (broadcastInDim S100000x128 ![0, 1] Cert.KernelIdeal.Facts₀.bcast_S100000x1_S100000x128_0_1
        (broadcastInDim S100000x1 ![0] bcast_S100000_S100000x1_0 batch) (ix2 n g))
      (broadcastInDim S100000x128 ![0, 1] bcast_S1x128_S100000x128_0_1
        (broadcastInDim S1x128 ![1] bcast_S128_S1x128_1 (iotaInDim S128 32 0)) (ix2 n g))) = _
  rw [hA, hB]
  show (((IntOp.cmpi .eq (batch (ix1 n)) (BitVec.ofNat 32 g.val)).toNat : ℝ) : EReal) = _
  by_cases hc : batch (ix1 n) = BitVec.ofNat 32 g.val
  · rw [if_pos hc, hc]; simp [IntOp.cmpi]
  · rw [if_neg hc]; simp [IntOp.cmpi, hc]

/-! ## The two sums -/

/-- The kernel's pool at `(g, f)`. -/
theorem poolSpec_apply (h : Arr Ideal S100000x128 .f32) (oh : Arr Ideal S100000x128 .bf16) (g f : Fin 128) :
    poolSpec h oh (ix2 g f) = ∑ n : Fin 100000, oh (ix2 n g) * h (ix2 n f) := rfl

/-- The reference's pool at an index: the exact scatter sum into a zero operand. -/
theorem poolH_apply (batch : Arr Ideal S100000 .i32) (h : Arr Ideal S100000x128 .f32) (i : S128x128.Idx) :
    poolH (F := Ideal) batch h i =
      (broadcastInDim S128x128 ![] bcast_S_S128x128 (constant (F := Ideal) S_ .f32 0x00000000#32)) i +
        ∑ j ∈ Finset.univ.filter (fun j => dP.resultIdx? j (broadcastInDim S100000x1 ![0] bcast_S100000_S100000x1_0 batch) = some i), h j := rfl

/-- The product with the one-hot matrix is the scatter-add: a node whose `batch` entry is `g` contributes its row to row
    `g` once, every other node contributes `0 * h = 0`; a `batch` entry outside `[0, 128)` matches no column of the one-hot
    matrix and is dropped by the scatter. -/
theorem pool_eq (batch : Arr Ideal S100000 .i32) (h : Arr Ideal S100000x128 .f32) :
    poolSpec h (onehotOf batch) = poolH (F := Ideal) batch h := by
  funext i
  obtain ⟨g, f, rfl⟩ : ∃ g f, i = ix2 g f := ⟨i 0, i 1, eq_ix2 i⟩
  rw [poolSpec_apply, poolH_apply]
  have hz : broadcastInDim S128x128 ![] bcast_S_S128x128 (constant (F := Ideal) S_ .f32 0x00000000#32) (ix2 g f) = 0 :=
    Ideal.ofBits_zero_f32
  rw [hz, zero_add, Finset.sum_filter, sum_idx2]
  refine Finset.sum_congr rfl (fun n _ => ?_)
  rw [onehot_apply]
  simp only [dP_resultIdx_ix2_iff]
  have hi := idx_apply batch n
  simp only [hi]
  by_cases hc : batch (ix1 n) = BitVec.ofNat 32 g.val
  · have ht : (batch (ix1 n)).toInt = (g.val : Int) := (word_eq_ofNat_iff _ _ g.isLt).1 hc
    rw [if_pos hc, one_mul]
    simp only [ht, true_and]
    rw [Finset.sum_ite_eq' Finset.univ f (fun b => h (ix2 n b)), if_pos (Finset.mem_univ f)]
  · have ht : ¬ (batch (ix1 n)).toInt = (g.val : Int) := fun h' => hc ((word_eq_ofNat_iff _ _ g.isLt).2 h')
    rw [if_neg hc, zero_mul]
    simp only [ht, false_and, if_false, Finset.sum_const_zero]

end Cert.Spec

end
-- ==== Proof.EqFin.lean ====
import proofs.«403458_j76407468195987_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Spec

open Idealize.ShloMosaic Idealize.ShloMosaic.ValueIdx
open Cert.ReferenceIdeal Cert.ReferenceIdeal.Facts₀

/-! ## The operand indices of the head's product of a [128,128] array with a [128,10] matrix

The dimension numbers contract the left operand's axis 1 with the right operand's axis 0 and have no batch axis: at
the output index (g, c) and the contraction index k the left operand is read at (g, k) and the right at (k, c).
One lemma per operand axis, each stated at the literal axis. -/

/-- The left operand's row is the output's row. -/
theorem fin_lhs_0 (i : S128x10.Idx) (q : dot_S128x128_S128x10_S128x10_1_0_0_1_n_n.contr.Idx) :
    (dot_S128x128_S128x10_S128x10_1_0_0_1_n_n.lhsIdx i q 0).val = (i 0).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl

/-- The left operand's column is the contraction index. -/
theorem fin_lhs_1 (i : S128x10.Idx) (q : dot_S128x128_S128x10_S128x10_1_0_0_1_n_n.contr.Idx) :
    (dot_S128x128_S128x10_S128x10_1_0_0_1_n_n.lhsIdx i q 1).val = (q ⟨0, by decide⟩).val :=
  dot_S128x128_S128x10_S128x10_1_0_0_1_n_n.lhsIdx_val_of_single rfl i q

/-- The right operand's row is the contraction index. -/
theorem fin_rhs_0 (i : S128x10.Idx) (q : dot_S128x128_S128x10_S128x10_1_0_0_1_n_n.contr.Idx) :
    (dot_S128x128_S128x10_S128x10_1_0_0_1_n_n.rhsIdx i q 0).val = (q ⟨0, by decide⟩).val :=
  dot_S128x128_S128x10_S128x10_1_0_0_1_n_n.rhsIdx_val_of_single rfl i q

/-- The right operand's column is the output's column. -/
theorem fin_rhs_1 (i : S128x10.Idx) (q : dot_S128x128_S128x10_S128x10_1_0_0_1_n_n.contr.Idx) :
    (dot_S128x128_S128x10_S128x10_1_0_0_1_n_n.rhsIdx i q 1).val = (i 1).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-- The head's product at an index is the sum over the contracted axis. -/
theorem headDot_apply (p : Arr Ideal S128x128 .f32) (wm : Arr Ideal S128x10 .f32) (i : S128x10.Idx) :
    Host.dotGeneral (F := Ideal) (φ₁ := .f32) (φ₂ := .f32) dot_S128x128_S128x10_S128x10_1_0_0_1_n_n none p wm i
      = ∑ k : Fin 128, p (ix2 (i 0) k) * wm (ix2 k (i 1)) := by
  simp only [Host.dotGeneral]
  -- the host's product at an index is the sum over the contraction's index set, which has one axis of extent 128
  rw [Ideal.dotGeneral_apply, ← Equiv.sum_comp (contrEquiv1 dot_S128x128_S128x10_S128x10_1_0_0_1_n_n 128 rfl rfl).symm]
  refine Finset.sum_congr rfl fun k _ => ?_
  have hk := contrEquiv1_symm_val dot_S128x128_S128x10_S128x10_1_0_0_1_n_n 128 rfl rfl k
  have el : dot_S128x128_S128x10_S128x10_1_0_0_1_n_n.lhsIdx i ((contrEquiv1 dot_S128x128_S128x10_S128x10_1_0_0_1_n_n 128 rfl rfl).symm k) = ix2 (i 0) k := funext fun a => Fin.ext (by
    match a with
    | ⟨0, _⟩ => exact fin_lhs_0 _ _
    | ⟨1, _⟩ => exact (fin_lhs_1 _ _).trans hk)
  have er : dot_S128x128_S128x10_S128x10_1_0_0_1_n_n.rhsIdx i ((contrEquiv1 dot_S128x128_S128x10_S128x10_1_0_0_1_n_n 128 rfl rfl).symm k) = ix2 k (i 1) := funext fun a => Fin.ext (by
    match a with
    | ⟨0, _⟩ => exact (fin_rhs_0 _ _).trans hk
    | ⟨1, _⟩ => exact fin_rhs_1 _ _)
  rw [el, er]
  rfl

/-! ## The head's bias as the two programs carry it -/

/-- The [1,10] row the kernel's program makes of the head's bias reads, at column j, the vector's entry j: the reshape
    keeps the row-major position, and row 0's position j is j. -/
theorem row10Of_apply {F : FTy → Type} [FloatOps F] (bm : Arr F S10 .f32) (j : Fin 10) :
    row10Of bm (ix2 (0 : Fin 1) j) = bm (ix1 j) := by
  unfold row10Of
  exact shapeCast_apply bm Cert.KernelIdeal.Facts₀.shapeCasts_S10_S1x10 (ix2 (0 : Fin 1) j) (ix1 j) (by
    rw [Shape.rowMajor_val_one, Shape.rowMajor_val_two]; show j.val = 0 * 10 + j.val; omega)

/-- The reference's head bias, a vector broadcast to a [1,10] row and then over the 128 rows, reads at (g, j) the
    vector's entry j. -/
theorem bias10Over_apply {F : FTy → Type} [FloatOps F] (bm : Arr F S10 .f32) (i : S128x10.Idx) :
    broadcastInDim S128x10 ![0, 1] bcast_S1x10_S128x10_0_1 (broadcastInDim S1x10 ![1] bcast_S10_S1x10_1 bm) i
      = bm (ix1 (i 1)) := by
  refine (broadcastInDim_apply _ bcast_S1x10_S128x10_0_1 (broadcastInDim S1x10 ![1] bcast_S10_S1x10_1 bm) i
    (ix2 (0 : Fin 1) (i 1)) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])).trans ?_
  exact broadcastInDim_apply _ bcast_S10_S1x10_1 bm (ix2 (0 : Fin 1) (i 1)) (ix1 (i 1)) (fun a => match a with
    | ⟨0, _⟩ => by show (i 1).val = if (10 : Nat) = 1 then 0 else (i 1).val; rw [if_neg (by decide)])

/-- The head: the product at an index is the sum over the contracted axis, the [1,10] row read at column `j` is `b_mlp j`. -/
theorem fin_eq (p : Arr Ideal S128x128 .f32) (wm : Arr Ideal S128x10 .f32) (bm : Arr Ideal S10 .f32) :
    finSpec p wm (row10Of bm) = headH (F := Ideal) p wm bm := by
  funext i
  obtain ⟨g, c, rfl⟩ : ∃ (g : Fin 128) (c : Fin 10), i = ix2 g c := ⟨i 0, i 1, eq_ix2 i⟩
  unfold headH
  rw [addf_apply, headDot_apply, bias10Over_apply]
  show (∑ k : Fin 128, p (ix2 g k) * wm (ix2 k c)) + row10Of bm (ix2 (0 : Fin 1) c)
    = (∑ k : Fin 128, p (ix2 g k) * wm (ix2 k c)) + bm (ix1 c)
  rw [row10Of_apply]

end Cert.Spec

end
-- ==== Proof.Bridge.lean ====
import proofs.«403458_j76407468195987_1_alg».proof.Proof.Spec
import proofs.«403458_j76407468195987_1_alg».proof.Proof.EqMm
import proofs.«403458_j76407468195987_1_alg».proof.Proof.EqBr
import proofs.«403458_j76407468195987_1_alg».proof.Proof.EqPool
import proofs.«403458_j76407468195987_1_alg».proof.Proof.EqFin

set_option maxRecDepth 16384

noncomputable section

open scoped BigOperators

namespace Cert.Spec

open Idealize.ShloMosaic
open Cert.ReferenceIdeal Cert.ReferenceIdeal.Facts₀

/-- One layer: the kernel's two regions around the shared neighbour sum are the reference's layer. -/
theorem layerK_eq (sv dv : Arr Ideal S740000 .i32) (nv : Arr Ideal S740000 .f32) (w : Arr Ideal S128x128 .f32) (b : Arr Ideal S128 .f32) (h : Arr Ideal S100000x128 .f32) :
    layerK sv dv nv w b h = layerH (F := Ideal) sv dv nv w b h := by
  unfold layerK layerH
  rw [br_eq, mm_eq]

/-- The two programs compute one function of their arguments. -/
theorem specK_eq_specH (x : Arr Ideal S100000x128 .f32) (e : Arr Ideal S2x640000 .i32) (batch : Arr Ideal S100000 .i32) (ws : Arr Ideal S3x128x128 .f32) (bs : Arr Ideal S3x128 .f32) (wm : Arr Ideal S128x10 .f32) (bm : Arr Ideal S10 .f32) :
    specK x e batch ws bs wm bm = specH (F := Ideal) x e batch ws bs wm bm := by
  unfold specK specH
  rw [fin_eq, pool_eq, layerK_eq, layerK_eq, layerK_eq]

end Cert.Spec

end
-- ==== Proof.lean ====
/-
  A three-layer graph convolution (100000 nodes, 128 features, 640000 edges and one self loop per node), a sum-pool
  into 128 graphs and a linear head. The kernel's program runs the four dense pieces in eight pipelined regions — per
  layer a row-tiled matrix product `h W` and a row-tiled bias-and-relu, then the pool as a product with the one-hot
  matrix of `batch` accumulated over ten row tiles, then the head — and leaves the index arithmetic, the degree
  normalisation and the neighbour sum to the host, where the reference has them too, as the same operations.

  Over the extended reals the two programs are one function of the seven arguments (Proof/Spec.lean states both
  forms): a row tile of a product is the rows of the product; the [1,128] bias row read at a column is the bias
  vector's entry; a product with a one-hot matrix is the sum of the selected rows, because `0 * y = 0` for every
  extended real `y` and a node whose `batch` entry matches no column is dropped on both sides; sums over ten tiles of
  10000 rows regroup into one sum over 100000 rows. No law used needs the inputs finite, so the precondition is
  never opened.

  The three frames are the generated ones (the reference's: its run with the result dropped). The idealization
  rewrote no operation, so `preserves` is `True`.
-/
import proofs.«403458_j76407468195987_1_alg».proof.Defs
import proofs.«403458_j76407468195987_1_alg».proof.Proof.Gen.Kernel
import proofs.«403458_j76407468195987_1_alg».proof.Proof.Gen.Kernel.Frame
import proofs.«403458_j76407468195987_1_alg».proof.Proof.Gen.KernelIdeal
import proofs.«403458_j76407468195987_1_alg».proof.Proof.Gen.KernelIdeal.Frame
import proofs.«403458_j76407468195987_1_alg».proof.Proof.Gen.ReferenceIdeal
import proofs.«403458_j76407468195987_1_alg».proof.Proof.Gen.Pre_finite_inputs
import proofs.«403458_j76407468195987_1_alg».proof.Proof.KRun
import proofs.«403458_j76407468195987_1_alg».proof.Proof.KFold
import proofs.«403458_j76407468195987_1_alg».proof.Proof.RefRun
import proofs.«403458_j76407468195987_1_alg».proof.Proof.RefValue
import proofs.«403458_j76407468195987_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at one function of the arguments: the kernel's program at `specK` (the eight
    regions' arrays folded through the host stretches), the reference at `specH` (its run's composed term), and
    `specK = specH`. -/
theorem algebraic : Cert.algebraic_KernelIdeal_ReferenceIdeal := by
  intro m ρ m' ρ' _ hagree
  refine ⟨fun c => Cert.Spec.specK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_value m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2]
    exact (Cert.Spec.specK_eq_specH _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
